-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x112x112 : Shape := ⟨4, ![64, 64, 112, 112]⟩
abbrev S64 : Shape := ⟨1, ![64]⟩
abbrev S32x64 : Shape := ⟨2, ![32, 64]⟩
abbrev S_ : Shape := ⟨0, ![]⟩

class Facts : Prop where
  bcast_S_S64x64x112x112 : S_.BroadcastsInDim S64x64x112x112 (![] : Fin 0 → Fin S64x64x112x112.rank)
  reducesTo_S64x64x112x112_S_d0_1_2_3 : S64x64x112x112.ReducesTo [0, 1, 2, 3] S_
  h_S_ : 0 < S_.numel
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_arg4 : FVec F S32x64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  main_v23

def fn {F : FTy → Type} [FloatOps F] (main_arg0 : FVec F S64x64x112x112 .f32) (main_arg1 : FVec F S64 .f32) (main_arg2 : FVec F S64 .f32) (main_arg3 : FVec F S32x64 .f32) (main_arg4 : FVec F S32x64 .f32) (main_arg5 : IVec S64 32) : IVec S_ 1 :=
  let main_v0 : FVec F S64x64x112x112 .f32 := Host.absf main_arg0
  let main_cst : FVec F S_ .f32 := constant S_ .f32 0x7F800000#32
  let main_v1 : FVec F S64x64x112x112 .f32 := broadcastInDim S64x64x112x112 ![] bcast_S_S64x64x112x112 main_cst
  let main_v2 : IVec S64x64x112x112 1 := cmpf .olt main_v0 main_v1
  let main_c : IVec S_ 1 := constantI S_ 1 1#1
  let main_v3 : IVec S_ 1 := (fun x v => Host.reduce IntOp.andi x v reducesTo_S64x64x112x112_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_v13 main_v16
-- ==== Kernel.lean ====
abbrev S64x64x112x112 : Shape := ⟨4, ![64, 64, 112, 112]⟩
abbrev S64 : Shape := ⟨1, ![64]⟩
abbrev S32x64 : Shape := ⟨2, ![32, 64]⟩
abbrev S64x64x1x1 : Shape := ⟨4, ![64, 64, 1, 1]⟩
abbrev S4x64x112x112 : Shape := ⟨4, ![4, 64, 112, 112]⟩
abbrev S4x64x1x1 : Shape := ⟨4, ![4, 64, 1, 1]⟩
abbrev S4x64 : Shape := ⟨2, ![4, 64]⟩
abbrev S64x64 : Shape := ⟨2, ![64, 64]⟩
abbrev S_ : Shape := ⟨0, ![]⟩
abbrev S64x1 : Shape := ⟨2, ![64, 1]⟩
abbrev S1x64 : Shape := ⟨2, ![1, 64]⟩
abbrev S2x64x112x112 : Shape := ⟨4, ![2, 64, 112, 112]⟩
abbrev S2x64x1x1 : Shape := ⟨4, ![2, 64, 1, 1]⟩

abbrev nBuf : Space → Nat
  | .hbm => 108
  | .vmem => 14
  | .smem => 0
  | _ => 0

abbrev bufTy : (tb : Table) → Fin (tcTables nBuf tb) → BufTy
  | .hbm, ⟨0, _⟩ => ⟨S64x64x112x112, .f32⟩
  | .hbm, ⟨1, _⟩ => ⟨S64, .f32⟩
  | .hbm, ⟨2, _⟩ => ⟨S64, .f32⟩
  | .hbm, ⟨3, _⟩ => ⟨S32x64, .f32⟩
  | .hbm, ⟨4, _⟩ => ⟨S32x64, .f32⟩
  | .hbm, ⟨5, _⟩ => ⟨S64, .i32⟩
  | .hbm, ⟨6, _⟩ => ⟨S64x64x1x1, .f32⟩
  | .hbm, ⟨7, _⟩ => ⟨S64x64x1x1, .f32⟩
  | .hbm, ⟨8, _⟩ => ⟨S64x64, .f32⟩
  | .hbm, ⟨9, _⟩ => ⟨S64x64, .f32⟩
  | .hbm, ⟨10, _⟩ => ⟨S_, .f32⟩
  | .hbm, ⟨11, _⟩ => ⟨S64x64, .f32⟩
  | .hbm, ⟨12, _⟩ => ⟨S64x64, .f32⟩
  | .hbm, ⟨13, _⟩ => ⟨S_, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S64, .i32⟩
  | .hbm, ⟨46, _⟩ => ⟨S64, .i32⟩
  | .hbm, ⟨47, _⟩ => ⟨S_, .i32⟩
  | .hbm, ⟨48, _⟩ => ⟨S64, .i32⟩
  | .hbm, ⟨49, _⟩ => ⟨S64, .i1⟩
  | .hbm, ⟨50, _⟩ => ⟨S_, .i32⟩
  | .hbm, ⟨51, _⟩ => ⟨S64, .i32⟩
  | .hbm, ⟨52, _⟩ => ⟨S64, .i1⟩
  | .hbm, ⟨53, _⟩ => ⟨S_, .i32⟩
  | .hbm, ⟨54, _⟩ => ⟨S_, .i1⟩
  | .hbm, ⟨55, _⟩ => ⟨S64, .i1⟩
  | .hbm, ⟨56, _⟩ => ⟨S64, .i1⟩
  | .hbm, ⟨57, _⟩ => ⟨S64, .i1⟩
  | .hbm, ⟨58, _⟩ => ⟨S64, .i32⟩
  | .hbm, ⟨59, _⟩ => ⟨S64, .i32⟩
  | .hbm, ⟨60, _⟩ => ⟨S64, .i32⟩
  | .hbm, ⟨61, _⟩ => ⟨S_, .i32⟩
  | .hbm, ⟨62, _⟩ => ⟨S64, .i32⟩
  | .hbm, ⟨63, _⟩ => ⟨S64, .i1⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S64, .i32⟩
  | .hbm, ⟨68, _⟩ => ⟨S64x1, .i32⟩
  | .hbm, ⟨69, _⟩ => ⟨S64x64, .f32⟩
  | .hbm, ⟨70, _⟩ => ⟨S_, .i32⟩
  | .hbm, ⟨71, _⟩ => ⟨S64, .i32⟩
  | .hbm, ⟨72, _⟩ => ⟨S64, .i1⟩
  | .hbm, ⟨73, _⟩ => ⟨S_, .i32⟩
  | .hbm, ⟨74, _⟩ => ⟨S64, .i32⟩
  | .hbm, ⟨75, _⟩ => ⟨S64, .i32⟩
  | .hbm, ⟨76, _⟩ => ⟨S64, .i32⟩
  | .hbm, ⟨77, _⟩ => ⟨S64x1, .i32⟩
  | .hbm, ⟨78, _⟩ => ⟨S64x64, .f32⟩
  | .hbm, ⟨79, _⟩ => ⟨S1x64, .f32⟩
  | .hbm, ⟨80, _⟩ => ⟨S_, .f32⟩
  | .hbm, ⟨81, _⟩ => ⟨S1x64, .f32⟩
  | .hbm, ⟨82, _⟩ => ⟨S1x64, .f32⟩
  | .hbm, ⟨83, _⟩ => ⟨S_, .f32⟩
  | .hbm, ⟨84, _⟩ => ⟨S64x64, .f32⟩
  | .hbm, ⟨85, _⟩ => ⟨S64x64, .f32⟩
  | .hbm, ⟨86, _⟩ => ⟨S64x64, .f32⟩
  | .hbm, ⟨87, _⟩ => ⟨S64x64, .f32⟩
  | .hbm, ⟨88, _⟩ => ⟨S64x64, .f32⟩
  | .hbm, ⟨89, _⟩ => ⟨S1x64, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S1x64, .f32⟩
  | .hbm, ⟨94, _⟩ => ⟨S_, .f32⟩
  | .hbm, ⟨95, _⟩ => ⟨S1x64, .f32⟩
  | .hbm, ⟨96, _⟩ => ⟨S1x64, .f32⟩
  | .hbm, ⟨97, _⟩ => ⟨S64x64, .f32⟩
  | .hbm, ⟨98, _⟩ => ⟨S64x64, .f32⟩
  | .hbm, ⟨99, _⟩ => ⟨S64x64, .f32⟩
  | .hbm, ⟨100, _⟩ => ⟨S_, .f32⟩
  | .hbm, ⟨101, _⟩ => ⟨S64x64, .f32⟩
  | .hbm, ⟨102, _⟩ => ⟨S64x64, .f32⟩
  | .hbm, ⟨103, _⟩ => ⟨S64x64, .f32⟩
  | .hbm, ⟨104, _⟩ => ⟨S64x64, .f32⟩
  | .hbm, ⟨105, _⟩ => ⟨S64x64x1x1, .f32⟩
  | .hbm, ⟨106, _⟩ => ⟨S64x64x1x1, .f32⟩
  | .hbm, ⟨107, _⟩ => ⟨S64x64x112x112, .f32⟩
  | .local _ .vmem, ⟨0, _⟩ => ⟨S4x64x112x112, .f32⟩
  | .local _ .vmem, ⟨1, _⟩ => ⟨S4x64x112x112, .f32⟩
  | .local _ .vmem, ⟨2, _⟩ => ⟨S4x64x1x1, .f32⟩
  | .local _ .vmem, ⟨3, _⟩ => ⟨S4x64x1x1, .f32⟩
  | .local _ .vmem, ⟨4, _⟩ => ⟨S4x64x1x1, .f32⟩
  | .local _ .vmem, ⟨5, _⟩ => ⟨S4x64x1x1, .f32⟩
  | .local _ .vmem, ⟨6, _⟩ => ⟨S2x64x112x112, .f32⟩
  | .local _ .vmem, ⟨7, _⟩ => ⟨S2x64x112x112, .f32⟩
  | .local _ .vmem, ⟨8, _⟩ => ⟨S2x64x1x1, .f32⟩
  | .local _ .vmem, ⟨9, _⟩ => ⟨S2x64x1x1, .f32⟩
  | .local _ .vmem, ⟨10, _⟩ => ⟨S2x64x1x1, .f32⟩
  | .local _ .vmem, ⟨11, _⟩ => ⟨S2x64x1x1, .f32⟩
  | .local _ .vmem, ⟨12, _⟩ => ⟨S2x64x112x112, .f32⟩
  | .local _ .vmem, ⟨13, _⟩ => ⟨S2x64x112x112, .f32⟩
  | _, _ => ⟨S64x64x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_1 : Ref sig .tc := ⟨.hbm, 47, rfl⟩
abbrev main_call0_v5 : Ref sig .tc := ⟨.hbm, 48, rfl⟩
abbrev main_call0_v6 : Ref sig .tc := ⟨.hbm, 49, rfl⟩
abbrev main_call0_c_2 : Ref sig .tc := ⟨.hbm, 50, rfl⟩
abbrev main_call0_v7 : Ref sig .tc := ⟨.hbm, 51, rfl⟩
abbrev main_call0_v8 : Ref sig .tc := ⟨.hbm, 52, rfl⟩
abbrev main_call0_c_3 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_v24 : Ref sig .tc := ⟨.hbm, 60, rfl⟩
abbrev main_c_7 : Ref sig .tc := ⟨.hbm, 61, rfl⟩
abbrev main_v25 : Ref sig .tc := ⟨.hbm, 62, rfl⟩
abbrev main_v26 : Ref sig .tc := ⟨.hbm, 63, rfl⟩
abbrev main_c_8 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_9 : Ref sig .tc := ⟨.hbm, 70, rfl⟩
abbrev main_v32 : Ref sig .tc := ⟨.hbm, 71, rfl⟩
abbrev main_v33 : Ref sig .tc := ⟨.hbm, 72, rfl⟩
abbrev main_c_10 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_11 : Ref sig .tc := ⟨.hbm, 80, rfl⟩
abbrev main_v40 : Ref sig .tc := ⟨.hbm, 81, rfl⟩
abbrev main_v41 : Ref sig .tc := ⟨.hbm, 82, rfl⟩
abbrev main_cst_12 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_13 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_14 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x112x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2x64x112x112 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x64x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x64x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x64x112x112 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S4x64x112x112_S4x64x112x112_0_0_0_0 : ∀ a, (![0, 0, 0, 0] : Fin 4 → Nat) a + S4x64x112x112.size a ≤ S4x64x112x112.size a
  h_S4x64x112x112 : 0 < S4x64x112x112.numel
  reduces_S4x64x112x112_S4x64 : S4x64x112x112.Reduces [2, 3] S4x64
  shapeCasts_S4x64_S4x64x1x1 : S4x64.ShapeCasts S4x64x1x1
  inb_S4x64x1x1_S4x64x1x1_0_0_0_0 : ∀ a, (![0, 0, 0, 0] : Fin 4 → Nat) a + S4x64x1x1.size a ≤ S4x64x1x1.size a
  h_S4x64x1x1 : 0 < S4x64x1x1.numel
  shapeCasts_S64x64x1x1_S64x64 : S64x64x1x1.ShapeCasts S64x64
  bcast_S_S64x64 : S_.BroadcastsInDim S64x64 (![] : Fin 0 → Fin S64x64.rank)
  reducesTo_S64x64_S64_d0 : S64x64.ReducesTo [0] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S64x64_0_1 : S1x64.BroadcastsInDim S64x64 (![0, 1] : Fin 2 → Fin S64x64.rank)
  shapeCasts_S64x64_S64x64x1x1 : S64x64.ShapeCasts S64x64x1x1
  inb_S2x64x112x112_S2x64x112x112_0_0_0_0 : ∀ a, (![0, 0, 0, 0] : Fin 4 → Nat) a + S2x64x112x112.size a ≤ S2x64x112x112.size a
  h_S2x64x112x112 : 0 < S2x64x112x112.numel
  inb_S2x64x1x1_S2x64x1x1_0_0_0_0 : ∀ a, (![0, 0, 0, 0] : Fin 4 → Nat) a + S2x64x1x1.size a ≤ S2x64x1x1.size a
  h_S2x64x1x1 : 0 < S2x64x1x1.numel
  shapeCasts_S2x64x1x1_S2x64x1x1 : S2x64x1x1.ShapeCasts S2x64x1x1
  broadcasts_S2x64x1x1_S2x64x112x112 : S2x64x1x1.Broadcasts S2x64x112x112
  gather_S32x64_S64x1_S64x64_1_0_n_n_0_1_164_wf : GatherDims.WF S32x64 S64x1 S64x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x112x112.size a ≤ S64x64x112x112.size a
  hwx0_0 : ∀ i : grid0.Coords, EltTy.bits .f32 = 32 ∨ (Rect.block (s := S64x64x112x112) S4x64x112x112.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x1x1.size a ≤ S64x64x1x1.size a
  hwx0_1 : ∀ i : grid0.Coords, EltTy.bits .f32 = 32 ∨ (Rect.block (s := S64x64x1x1) S4x64x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x1x1.size a ≤ S64x64x1x1.size a
  hwx0_2 : ∀ i : grid0.Coords, EltTy.bits .f32 = 32 ∨ (Rect.block (s := S64x64x1x1) S4x64x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x64x112x112.size a ≤ S64x64x112x112.size a
  hwx1_0 : ∀ i : grid1.Coords, EltTy.bits .f32 = 32 ∨ (Rect.block (s := S64x64x112x112) S2x64x112x112.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x64x1x1.size a ≤ S64x64x1x1.size a
  hwx1_1 : ∀ i : grid1.Coords, EltTy.bits .f32 = 32 ∨ (Rect.block (s := S64x64x1x1) S2x64x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x64x1x1.size a ≤ S64x64x1x1.size a
  hwx1_2 : ∀ i : grid1.Coords, EltTy.bits .f32 = 32 ∨ (Rect.block (s := S64x64x1x1) S2x64x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x64x112x112.size a ≤ S64x64x112x112.size a
  hwx1_3 : ∀ i : grid1.Coords, EltTy.bits .f32 = 32 ∨ (Rect.block (s := S64x64x112x112) S2x64x112x112.size (cc1_transform_3 i) (hinb1_3 i)).WholeWords (EltTy.packing .f32)

variable [Facts₀]

def gather_S32x64_S64x1_S64x64_1_0_n_n_0_1_164 : GatherDims S32x64 S64x1 S64x64 where
  offsetDims := [1]
  collapsedSliceDims := [0]
  operandBatchingDims := []
  startIndicesBatchingDims := []
  startIndexMap := [0]
  indexVectorDim := 1
  sliceSizes := ![1, 64]
  wf := gather_S32x64_S64x1_S64x64_1_0_n_n_0_1_164_wf

abbrev win0_0 : Pipeline.Window sig grid0 :=
  Pipeline.Window.ofSpec (Memref.whole main_arg0) S4x64x112x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4x64x1x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S4x64x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2x64x112x112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S2x64x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S2x64x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v63) S2x64x112x112.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x64x112x112 : Shape := ⟨4, ![64, 64, 112, 112]⟩
abbrev S64 : Shape := ⟨1, ![64]⟩
abbrev S32x64 : Shape := ⟨2, ![32, 64]⟩
abbrev S_ : Shape := ⟨0, ![]⟩
abbrev S1x64x1x1 : Shape := ⟨4, ![1, 64, 1, 1]⟩
abbrev S64x64 : Shape := ⟨2, ![64, 64]⟩
abbrev S64x64x1x1 : Shape := ⟨4, ![64, 64, 1, 1]⟩
abbrev S64x1 : Shape := ⟨2, ![64, 1]⟩

abbrev nBuf : Space → Nat
  | .hbm => 139
  | .vmem => 0
  | .smem => 0
  | _ => 0

abbrev hbmTy0_0 (i : Nat) : BufTy := match i % 128 with
  | 0 => ⟨S64x64x112x112, .f32⟩
  | 1 => ⟨S64, .f32⟩
  | 2 => ⟨S64, .f32⟩
  | 3 => ⟨S32x64, .f32⟩
  | 4 => ⟨S32x64, .f32⟩
  | 5 => ⟨S64, .i32⟩
  | 6 => ⟨S_, .f32⟩
  | 7 => ⟨S64, .f32⟩
  | 8 => ⟨S_, .f32⟩
  | 9 => ⟨S64, .f32⟩
  | 10 => ⟨S64, .f32⟩
  | 11 => ⟨S_, .i32⟩
  | 12 => ⟨S_, .f32⟩
  | 13 => ⟨S64, .f32⟩
  | 14 => ⟨S1x64x1x1, .f32⟩
  | 15 => ⟨S_, .f32⟩
  | 16 => ⟨S1x64x1x1, .f32⟩
  | 17 => ⟨S1x64x1x1, .f32⟩
  | 18 => ⟨S64x64x112x112, .f32⟩
  | 19 => ⟨S64x64x112x112, .f32⟩
  | 20 => ⟨S64x64x112x112, .f32⟩
  | 21 => ⟨S_, .f32⟩
  | 22 => ⟨S_, .f32⟩
  | 23 => ⟨S_, .f32⟩
  | 24 => ⟨S_, .f32⟩
  | 25 => ⟨S64, .f32⟩
  | 26 => ⟨S64, .f32⟩
  | 27 => ⟨S64, .f32⟩
  | 28 => ⟨S_, .f32⟩
  | 29 => ⟨S_, .i1⟩
  | 30 => ⟨S_, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S64, .f32⟩
  | 38 => ⟨S1x64x1x1, .f32⟩
  | 39 => ⟨S64x64x112x112, .f32⟩
  | 40 => ⟨S64x64x112x112, .f32⟩
  | 41 => ⟨S64, .f32⟩
  | 42 => ⟨S1x64x1x1, .f32⟩
  | 43 => ⟨S64x64x112x112, .f32⟩
  | 44 => ⟨S64x64x112x112, .f32⟩
  | 45 => ⟨S1x64x1x1, .f32⟩
  | 46 => ⟨S64x64x112x112, .f32⟩
  | 47 => ⟨S64x64x112x112, .f32⟩
  | 48 => ⟨S_, .f32⟩
  | 49 => ⟨S64x64, .f32⟩
  | 50 => ⟨S64x64x1x1, .f32⟩
  | 51 => ⟨S_, .f32⟩
  | 52 => ⟨S64x64x1x1, .f32⟩
  | 53 => ⟨S64x64x1x1, .f32⟩
  | 54 => ⟨S_, .i32⟩
  | 55 => ⟨S_, .f32⟩
  | 56 => ⟨S64x64, .f32⟩
  | 57 => ⟨S64x64x1x1, .f32⟩
  | 58 => ⟨S_, .f32⟩
  | 59 => ⟨S64x64x1x1, .f32⟩
  | 60 => ⟨S64x64x1x1, .f32⟩
  | 61 => ⟨S64x64x112x112, .f32⟩
  | 62 => ⟨S64x64x112x112, .f32⟩
  | 63 => ⟨S64x64x112x112, .f32⟩
  | 64 => ⟨S_, .f32⟩
  | 65 => ⟨S_, .f32⟩
  | 66 => ⟨S_, .f32⟩
  | 67 => ⟨S_, .f32⟩
  | 68 => ⟨S64x64, .f32⟩
  | 69 => ⟨S64x64x1x1, .f32⟩
  | 70 => ⟨S64x64x1x1, .f32⟩
  | 71 => ⟨S64x64x1x1, .f32⟩
  | 72 => ⟨S_, .f32⟩
  | 73 => ⟨S_, .i1⟩
  | 74 => ⟨S_, .f32⟩
  | 75 => ⟨S_, .f32⟩
  | 76 => ⟨S64x64x1x1, .f32⟩
  | 77 => ⟨S64x64x1x1, .f32⟩
  | 78 => ⟨S64x64x112x112, .f32⟩
  | 79 => ⟨S64x64x112x112, .f32⟩
  | 80 => ⟨S_, .f32⟩
  | 81 => ⟨S64x64x1x1, .f32⟩
  | 82 => ⟨S64x64x1x1, .f32⟩
  | 83 => ⟨S64x64x1x1, .f32⟩
  | 84 => ⟨S64x64x112x112, .f32⟩
  | 85 => ⟨S64x64x112x112, .f32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S64, .i32⟩
  | 93 => ⟨S64, .i32⟩
  | 94 => ⟨S_, .i32⟩
  | 95 => ⟨S64, .i32⟩
  | 96 => ⟨S64, .i1⟩
  | 97 => ⟨S_, .i32⟩
  | 98 => ⟨S64, .i32⟩
  | 99 => ⟨S64, .i1⟩
  | 100 => ⟨S_, .i32⟩
  | 101 => ⟨S_, .i1⟩
  | 102 => ⟨S64, .i1⟩
  | 103 => ⟨S64, .i1⟩
  | 104 => ⟨S64, .i1⟩
  | 105 => ⟨S64, .i32⟩
  | 106 => ⟨S64, .i32⟩
  | 107 => ⟨S64, .i32⟩
  | 108 => ⟨S_, .i32⟩
  | 109 => ⟨S64, .i32⟩
  | 110 => ⟨S64, .i1⟩
  | 111 => ⟨S_, .i32⟩
  | 112 => ⟨S64, .i32⟩
  | 113 => ⟨S64, .i32⟩
  | 114 => ⟨S64, .i32⟩
  | 115 => ⟨S64x1, .i32⟩
  | 116 => ⟨S64x64, .f32⟩
  | 117 => ⟨S64x64x1x1, .f32⟩
  | 118 => ⟨S_, .i32⟩
  | 119 => ⟨S64, .i32⟩
  | 120 => ⟨S64, .i1⟩
  | 121 => ⟨S_, .i32⟩
  | 122 => ⟨S64, .i32⟩
  | 123 => ⟨S64, .i32⟩
  | 124 => ⟨S64, .i32⟩
  | 125 => ⟨S64x1, .i32⟩
  | 126 => ⟨S64x64, .f32⟩
  | 127 => ⟨S64x64x1x1, .f32⟩
  | _ => ⟨S64x64x112x112, .f32⟩

abbrev hbmTy0_1 (i : Nat) : BufTy := match i % 128 with
  | 0 => ⟨S64x64x112x112, .f32⟩
  | 1 => ⟨S64x64x112x112, .f32⟩
  | 2 => ⟨S64x64x112x112, .f32⟩
  | 3 => ⟨S64x64x112x112, .f32⟩
  | 4 => ⟨S_, .f32⟩
  | 5 => ⟨S64x64x112x112, .f32⟩
  | 6 => ⟨S64x64x112x112, .f32⟩
  | 7 => ⟨S_, .f32⟩
  | 8 => ⟨S64x64x112x112, .f32⟩
  | 9 => ⟨S64x64x112x112, .f32⟩
  | 10 => ⟨S64x64x112x112, .f32⟩
  | _ => ⟨S64x64x112x112, .f32⟩

abbrev hbmTy (i : Nat) : BufTy := match i / 128 with
  | 0 => hbmTy0_0 i
  | 1 => hbmTy0_1 i
  | _ => ⟨S64x64x112x112, .f32⟩

abbrev bufTy : (tb : Table) → Fin (tcTables nBuf tb) → BufTy
  | .hbm, ⟨i, _⟩ => hbmTy i
  | _, _ => ⟨S64x64x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_cst_3 : Ref sig .tc := ⟨.hbm, 28, rfl⟩
abbrev main_call0_v12 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_2 : Ref sig .tc := ⟨.hbm, 48, rfl⟩
abbrev main_v17 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_c_4 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_cst_3 : Ref sig .tc := ⟨.hbm, 72, rfl⟩
abbrev main_call1_v13 : Ref sig .tc := ⟨.hbm, 73, rfl⟩
abbrev main_call1_cst_4 : Ref sig .tc := ⟨.hbm, 74, rfl⟩
abbrev main_call1_call0_v0 : Ref sig .tc := ⟨.hbm, 75, rfl⟩
abbrev main_call1_call0_v1 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_cst_5 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_c_6 : Ref sig .tc := ⟨.hbm, 86, rfl⟩
abbrev main_call2_v0 : Ref sig .tc := ⟨.hbm, 87, rfl⟩
abbrev main_call2_c : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_c_1 : Ref sig .tc := ⟨.hbm, 94, rfl⟩
abbrev main_call2_v5 : Ref sig .tc := ⟨.hbm, 95, rfl⟩
abbrev main_call2_v6 : Ref sig .tc := ⟨.hbm, 96, rfl⟩
abbrev main_call2_c_2 : Ref sig .tc := ⟨.hbm, 97, rfl⟩
abbrev main_call2_v7 : Ref sig .tc := ⟨.hbm, 98, rfl⟩
abbrev main_call2_v8 : Ref sig .tc := ⟨.hbm, 99, rfl⟩
abbrev main_call2_c_3 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_v29 : Ref sig .tc := ⟨.hbm, 107, rfl⟩
abbrev main_c_7 : Ref sig .tc := ⟨.hbm, 108, rfl⟩
abbrev main_v30 : Ref sig .tc := ⟨.hbm, 109, rfl⟩
abbrev main_v31 : Ref sig .tc := ⟨.hbm, 110, rfl⟩
abbrev main_c_8 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_c_9 : Ref sig .tc := ⟨.hbm, 118, rfl⟩
abbrev main_v38 : Ref sig .tc := ⟨.hbm, 119, rfl⟩
abbrev main_v39 : Ref sig .tc := ⟨.hbm, 120, rfl⟩
abbrev main_c_10 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_cst_11 : Ref sig .tc := ⟨.hbm, 132, rfl⟩
abbrev main_v50 : Ref sig .tc := ⟨.hbm, 133, rfl⟩
abbrev main_v51 : Ref sig .tc := ⟨.hbm, 134, rfl⟩
abbrev main_cst_12 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩

abbrev nD : Nat := 1
abbrev τ : Topo := Topo.v7x

variable {F : FTy → Type} [FloatOps F]

class Facts₀ : Prop where
  reducesTo_S64x64x112x112_S64_d0_2_3 : S64x64x112x112.ReducesTo [0, 2, 3] S64
  h_S_ : 0 < S_.numel
  bcast_S_S64 : S_.BroadcastsInDim S64 (![] : Fin 0 → Fin S64.rank)
  bcast_S64_S1x64x1x1_1 : S64.BroadcastsInDim S1x64x1x1 (![1] : Fin 1 → Fin S1x64x1x1.rank)
  bcast_S_S1x64x1x1 : S_.BroadcastsInDim S1x64x1x1 (![] : Fin 0 → Fin S1x64x1x1.rank)
  bcast_S1x64x1x1_S64x64x112x112_0_1_2_3 : S1x64x1x1.BroadcastsInDim S64x64x112x112 (![0, 1, 2, 3] : Fin 4 → Fin S64x64x112x112.rank)
  reducesTo_S64x64x112x112_S64x64_d2_3 : S64x64x112x112.ReducesTo [2, 3] S64x64
  bcast_S64x64_S64x64x1x1_0_1 : S64x64.BroadcastsInDim S64x64x1x1 (![0, 1] : Fin 2 → Fin S64x64x1x1.rank)
  bcast_S_S64x64x1x1 : S_.BroadcastsInDim S64x64x1x1 (![] : Fin 0 → Fin S64x64x1x1.rank)
  bcast_S64x64x1x1_S64x64x112x112_0_1_2_3 : S64x64x1x1.BroadcastsInDim S64x64x112x112 (![0, 1, 2, 3] : Fin 4 → Fin S64x64x112x112.rank)
  bcast_S64_S64x1_0 : S64.BroadcastsInDim S64x1 (![0] : Fin 1 → Fin S64x1.rank)
  bcast_S_S64x64x112x112 : S_.BroadcastsInDim S64x64x112x112 (![] : Fin 0 → Fin S64x64x112x112.rank)
  gather_S32x64_S64x1_S64x64_1_0_n_n_0_1_164_wf : GatherDims.WF S32x64 S64x1 S64x64 [1] [0] [] [0] [] 1 ![1, 64]

variable [Facts₀]

def gather_S32x64_S64x1_S64x64_1_0_n_n_0_1_164 : GatherDims S32x64 S64x1 S64x64 where
  offsetDims := [1]
  collapsedSliceDims := [0]
  operandBatchingDims := []
  startIndicesBatchingDims := []
  startIndexMap := [0]
  indexVectorDim := 1
  sliceSizes := ![1, 64]
  wf := gather_S32x64_S64x1_S64x64_1_0_n_n_0_1_164_wf

class Facts : Prop extends Facts₀ where

variable [Facts]
-- ==== Proof.Spec.lean ====
/-
  The two programs as scalar formulas on the extended reals.

  Notation: x[b,c,p,q] is the input tensor (64 samples, 64 channels, a 112 x 112 plane), gamma and beta the global
  affine parameters per channel, g[b,c] and bg[b,c] the routed per-sample affine parameters (one row of each group
  table, chosen by the sample's label; both programs choose it by the same integer computation, which stays
  closed here).  HW = 12544 = 112 * 112 is the plane's size and N = 802816 = 64 * HW the size of a channel's batch.

  Kernel.  From the plane sums s1 = sum x and s2 = sum x^2 it forms per-sample statistics mu_s = s1 / HW,
  inv_s = rsqrt (s2 / HW - mu_s^2 + eps), per-channel statistics from the sums over the samples of s1 and s2 in the
  same way, and the affine coefficients
      A = 1/2 * (gamma * inv_g) + 1/2 * inv_s * g,   B = 1/2 * (beta - mu_g * (gamma * inv_g)) + 1/2 * (bg - mu_s * inv_s * g),
  and returns x * A + B.

  Reference.  Means as sums divided by the counts, variances as means of squared deviations, and
      1/2 * ((x - mu_g) * (gamma * inv_g) + beta) + 1/2 * ((x - mu_s) * inv_s * g + bg).

  With every input finite all of these are real numbers; the variance is the mean of squares minus the squared mean
  because the divisor is the number of summands, so the two rsqrt arguments agree and are positive, and the two
  results differ by a rearrangement valid in a commutative ring.
-/
import Idealize.ShloMosaic.PureOps.Ideal
import Idealize.ShloMosaic.PureOps.Ideal.Laws
import Idealize.ShloMosaic.Lib.ValueIdx

noncomputable section

namespace Cert.BlendNorm

open Idealize.ShloMosaic Idealize.ShloMosaic.ValueIdx

/-- The tensor's shape, the shape of a per-(sample, channel) coefficient, of a sample-by-channel table, of a channel vector. -/
abbrev X4 : Shape := ⟨4, ![64, 64, 112, 112]⟩
abbrev C4 : Shape := ⟨4, ![64, 64, 1, 1]⟩
abbrev P2 : Shape := ⟨2, ![64, 64]⟩
abbrev V1 : Shape := ⟨1, ![64]⟩

/-- The plane's size 12544.0, a channel's batch size 802816.0, the variance offset 1e-5 rounded to f32, and 0.5. -/
abbrev cHW : EReal := Ideal.ofBits .f32 0x46440000#32
abbrev cN : EReal := Ideal.ofBits .f32 0x49440000#32
abbrev cEps : EReal := Ideal.ofBits .f32 0x3727C5AC#32
abbrev cHalf : EReal := Ideal.ofBits .f32 0x3F000000#32

section
variable (x : X4.Idx → EReal) (γ β : V1.Idx → EReal) (g bg : P2.Idx → EReal)

/-- The sum of a sample's channel plane, and of its squares. -/
def s1 (b c : Fin 64) : EReal := ∑ p : Fin 112, ∑ q : Fin 112, x (ix4 b c p q)
def s2 (b c : Fin 64) : EReal := ∑ p : Fin 112, ∑ q : Fin 112, x (ix4 b c p q) * x (ix4 b c p q)

/-! ### The kernel -/

def kMuS (b c : Fin 64) : EReal := Ideal.div (s1 x b c) cHW
def kInvS (b c : Fin 64) : EReal := Ideal.rsqrt (Ideal.div (s2 x b c) cHW - kMuS x b c * kMuS x b c + cEps)
def kMuG (c : Fin 64) : EReal := Ideal.div (∑ b : Fin 64, s1 x b c) cN
def kInvG (c : Fin 64) : EReal := Ideal.rsqrt (Ideal.div (∑ b : Fin 64, s2 x b c) cN - kMuG x c * kMuG x c + cEps)
def kA (b c : Fin 64) : EReal := cHalf * (γ (ix1 c) * kInvG x c) + cHalf * kInvS x b c * g (ix2 b c)
def kB (b c : Fin 64) : EReal :=
  cHalf * (β (ix1 c) - kMuG x c * (γ (ix1 c) * kInvG x c)) + cHalf * (bg (ix2 b c) - kMuS x b c * kInvS x b c * g (ix2 b c))
def kOut (b c : Fin 64) (p q : Fin 112) : EReal := x (ix4 b c p q) * kA x γ g b c + kB x γ β g bg b c

/-! ### The reference -/

def rMuG (c : Fin 64) : EReal := Ideal.div (∑ b : Fin 64, ∑ p : Fin 112, ∑ q : Fin 112, x (ix4 b c p q)) cN
def rVarG (c : Fin 64) : EReal :=
  Ideal.div (∑ b : Fin 64, ∑ p : Fin 112, ∑ q : Fin 112, (x (ix4 b c p q) - rMuG x c) * (x (ix4 b c p q) - rMuG x c)) cN
def rInvG (c : Fin 64) : EReal := Ideal.rsqrt (rVarG x c + cEps)
def rVarS (b c : Fin 64) : EReal :=
  Ideal.div (∑ p : Fin 112, ∑ q : Fin 112, (x (ix4 b c p q) - kMuS x b c) * (x (ix4 b c p q) - kMuS x b c)) cHW
def rInvS (b c : Fin 64) : EReal := Ideal.rsqrt (rVarS x b c + cEps)
def rOut (b c : Fin 64) (p q : Fin 112) : EReal :=
  cHalf * ((x (ix4 b c p q) - rMuG x c) * (γ (ix1 c) * rInvG x c) + β (ix1 c))
    + cHalf * ((x (ix4 b c p q) - kMuS x b c) * rInvS x b c * g (ix2 b c) + bg (ix2 b c))

end

end Cert.BlendNorm

end
-- ==== Proof.LibPlaneSums.lean ====
/-
  Sums over several axes of a rank-4 array, read as nested sums over coordinates.

  The vector unit's and the host's add-reductions are defined as the sum over all source indices that drop to the
  result index.  For a [B, C, H, W] array reduced over its last two axes that set is { (b, c, p, q) : p, q }, and
  reduced over axes 0, 2, 3 it is { (b, c, p, q) : b, p, q }; for a [B, C] table reduced over axis 0 it is the
  column.  Each lemma rewrites the filtered sum as the nested sum over the free coordinates.

  The road: a filtered sum is the sum of the terms switched by the filter's condition; a sum over a rank-4 index set is
  the fourfold sum over its coordinates; an index (b', c', p, q) drops to (b, c) exactly when b' = b and c' = c, since
  each coordinate of the dropped index is the source's coordinate on the kept axis; and a sum of terms switched by
  "coordinate = fixed value" is the one term at that value.
-/
import Idealize.ShloMosaic.PureOps.Ideal
import Idealize.ShloMosaic.PureOps.Ideal.Laws
import Idealize.ShloMosaic.Lib.ValueIdx

noncomputable section

namespace Cert.LibPlaneSums

open Idealize.ShloMosaic Idealize.ShloMosaic.ValueIdx

variable {B C H W : ℕ}

/-! ## A rank-4 index set as the product of its coordinate ranges -/

/-- A rank-4 index set is the product of its four coordinate ranges … -/
def idxEquiv4 {n0 n1 n2 n3 : ℕ} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-! ## Which indices drop to a given result index -/

/-- Dropping the last two coordinates lands on (b, c) exactly from the indices whose first two coordinates are b, c. -/
theorem drop_plane_iff (h : (⟨4, ![B, C, H, W]⟩ : Shape).ReducesTo [2, 3] ⟨2, ![B, C]⟩)
    (b b' : Fin B) (c c' : Fin C) (p : Fin H) (q : Fin W) :
    h.drop (ix4 b' c' p q) = ix2 b c ↔ b' = b ∧ c' = c := by
  constructor
  · intro e
    have e0 := congrArg (fun j : (⟨2, ![B, C]⟩ : Shape).Idx => (j 0).val) e
    have e1 := congrArg (fun j : (⟨2, ![B, C]⟩ : Shape).Idx => (j 1).val) e
    exact ⟨Fin.ext e0, Fin.ext e1⟩
  · rintro ⟨rfl, rfl⟩
    funext a
    match a with
    | ⟨0, _⟩ => exact Fin.ext rfl
    | ⟨1, _⟩ => exact Fin.ext rfl

/-- Dropping coordinates 0, 2, 3 lands on c exactly from the indices whose coordinate 1 is c. -/
theorem drop_batchPlane_iff (h : (⟨4, ![B, C, H, W]⟩ : Shape).ReducesTo [0, 2, 3] ⟨1, ![C]⟩)
    (b' : Fin B) (c c' : Fin C) (p : Fin H) (q : Fin W) :
    h.drop (ix4 b' c' p q) = ix1 c ↔ c' = c := by
  constructor
  · intro e
    have e0 := congrArg (fun j : (⟨1, ![C]⟩ : Shape).Idx => (j 0).val) e
    exact Fin.ext e0
  · rintro rfl
    funext a
    match a with
    | ⟨0, _⟩ => exact Fin.ext rfl

/-- Dropping the row coordinate of a table index lands on c exactly from the indices in column c. -/
theorem drop_rows_iff (h : (⟨2, ![B, C]⟩ : Shape).ReducesTo [0] ⟨1, ![C]⟩) (b' : Fin B) (c c' : Fin C) :
    h.drop (ix2 b' c') = ix1 c ↔ c' = c := by
  constructor
  · intro e
    have e0 := congrArg (fun j : (⟨1, ![C]⟩ : Shape).Idx => (j 0).val) e
    exact Fin.ext e0
  · rintro rfl
    funext a
    match a with
    | ⟨0, _⟩ => exact Fin.ext rfl

/-! ## The filtered sums as nested sums -/

/-- The sum over the indices that drop (last two coordinates removed) to (b, c) is the sum over the plane at (b, c). -/
theorem sum_filter_drop_plane {M : Type*} [AddCommMonoid M]
    (h : (⟨4, ![B, C, H, W]⟩ : Shape).ReducesTo [2, 3] ⟨2, ![B, C]⟩)
    (x : (⟨4, ![B, C, H, W]⟩ : Shape).Idx → M) (b : Fin B) (c : Fin C) :
    ∑ i ∈ Finset.univ.filter (fun i => h.drop i = ix2 b c), x i = ∑ p : Fin H, ∑ q : Fin W, x (ix4 b c p q) := by
  rw [Finset.sum_filter, sum_idx4]
  simp only [drop_plane_iff]
  rw [Finset.sum_eq_single b]
  · rw [Finset.sum_eq_single c]
    · simp
    · intro c' _ hc; simp [hc]
    · simp
  · intro b' _ hb; simp [hb]
  · simp

/-- The sum over the indices that drop (coordinates 0, 2, 3 removed) to c is the sum over samples and plane at c. -/
theorem sum_filter_drop_batchPlane {M : Type*} [AddCommMonoid M]
    (h : (⟨4, ![B, C, H, W]⟩ : Shape).ReducesTo [0, 2, 3] ⟨1, ![C]⟩)
    (x : (⟨4, ![B, C, H, W]⟩ : Shape).Idx → M) (c : Fin C) :
    ∑ i ∈ Finset.univ.filter (fun i => h.drop i = ix1 c), x i
      = ∑ b : Fin B, ∑ p : Fin H, ∑ q : Fin W, x (ix4 b c p q) := by
  rw [Finset.sum_filter, sum_idx4]
  simp only [drop_batchPlane_iff]
  refine Finset.sum_congr rfl fun b' _ => ?_
  rw [Finset.sum_eq_single c]
  · simp
  · intro c' _ hc; simp [hc]
  · simp

/-- The sum over the table indices that drop (row coordinate removed) to c is the sum down column c. -/
theorem sum_filter_drop_rows {M : Type*} [AddCommMonoid M]
    (h : (⟨2, ![B, C]⟩ : Shape).ReducesTo [0] ⟨1, ![C]⟩)
    (x : (⟨2, ![B, C]⟩ : Shape).Idx → M) (c : Fin C) :
    ∑ i ∈ Finset.univ.filter (fun i => h.drop i = ix1 c), x i = ∑ b : Fin B, x (ix2 b c) := by
  rw [Finset.sum_filter, sum_idx2]
  simp only [drop_rows_iff]
  refine Finset.sum_congr rfl fun b' _ => ?_
  rw [Finset.sum_eq_single c]
  · simp
  · intro c' _ hc; simp [hc]
  · simp

/-! ## The reductions -/

/-- A vector add-reduction over the last two axes of a [B, C, H, W] array, at (b, c): the sum over the plane. -/
theorem reduceAdd_plane (h : (⟨4, ![B, C, H, W]⟩ : Shape).Reduces [2, 3] ⟨2, ![B, C]⟩)
    (x : (⟨4, ![B, C, H, W]⟩ : Shape).Idx → EReal) (b : Fin B) (c : Fin C) :
    Ideal.reduceAdd h x (ix2 b c) = ∑ p : Fin H, ∑ q : Fin W, x (ix4 b c p q) := by
  unfold Ideal.reduceAdd
  rw [← Shape.ReducesTo.drop_eq_drop h.reducesTo h]
  exact sum_filter_drop_plane h.reducesTo x b c

/-- The host's add-reduction over the last two axes, at (b, c): the initial value plus the sum over the plane. -/
theorem hostReduceAdd_plane (h : (⟨4, ![B, C, H, W]⟩ : Shape).ReducesTo [2, 3] ⟨2, ![B, C]⟩)
    (x : (⟨4, ![B, C, H, W]⟩ : Shape).Idx → EReal) (init : EReal) (b : Fin B) (c : Fin C) :
    Ideal.hostReduceAdd h x init (ix2 b c) = init + ∑ p : Fin H, ∑ q : Fin W, x (ix4 b c p q) := by
  unfold Ideal.hostReduceAdd
  rw [sum_filter_drop_plane h x b c]

/-- The host's add-reduction over axes 0, 2, 3, at channel c: the initial value plus the sum over samples and plane. -/
theorem hostReduceAdd_batchPlane (h : (⟨4, ![B, C, H, W]⟩ : Shape).ReducesTo [0, 2, 3] ⟨1, ![C]⟩)
    (x : (⟨4, ![B, C, H, W]⟩ : Shape).Idx → EReal) (init : EReal) (c : Fin C) :
    Ideal.hostReduceAdd h x init (ix1 c) = init + ∑ b : Fin B, ∑ p : Fin H, ∑ q : Fin W, x (ix4 b c p q) := by
  unfold Ideal.hostReduceAdd
  rw [sum_filter_drop_batchPlane h x c]

/-- The host's add-reduction of a [B, C] table over its rows, at column c. -/
theorem hostReduceAdd_rows (h : (⟨2, ![B, C]⟩ : Shape).ReducesTo [0] ⟨1, ![C]⟩)
    (x : (⟨2, ![B, C]⟩ : Shape).Idx → EReal) (init : EReal) (c : Fin C) :
    Ideal.hostReduceAdd h x init (ix1 c) = init + ∑ b : Fin B, x (ix2 b c) := by
  unfold Ideal.hostReduceAdd
  rw [sum_filter_drop_rows h x c]

end Cert.LibPlaneSums

end
-- ==== Proof.KRegion0.lean ====
/-
  What the first launch leaves in its two result arrays.

  The launch has 16 grid points; point t stages samples 4t .. 4t+3 of the tensor (a 4 x 64 x 112 x 112 block), the body
  sums each (sample, channel) plane of the block and of its elementwise square, and the two 4 x 64 x 1 x 1 results
  are written back at rows 4t .. 4t+3.  The blocks tile the result arrays, so entry (b, c, 0, 0) of the first result
  is the sum of plane (b, c) of the tensor, and of the second the sum of its squares.

  The road.  The stored value at (r, c, 0, 0) is the [4, 64] table of plane sums read at (r, c), since adding two unit
  axes keeps the row-major position, and a sum over the last two axes is the double sum over the plane.  The block of
  the tensor at point t, at (r, c, p, q), is the tensor at (4t + r, c, p, q): a block's coordinate is the block index
  times the block's extent plus the coordinate inside the block, and the block index is (t, 0, 0, 0).  So what point t
  writes back is rows 4t .. 4t+3 of one whole-array function, the plane sums of the tensor; row b lies in the block of
  point b / 4, every point writes back, hence the array ends holding that function.
-/
import proofs.«109601_j76192719831877_1_alg».proof.Proof.Gen.KernelIdeal.Frame
import proofs.«109601_j76192719831877_1_alg».proof.Proof.Spec
import proofs.«109601_j76192719831877_1_alg».proof.Proof.LibPlaneSums
import Idealize.ShloMosaic.Lib.Pipeline.Value

set_option maxRecDepth 16384

noncomputable section

namespace Cert.KernelIdeal.Blend

open Idealize.ShloMosaic Idealize.ShloMosaic.TcCoe Idealize.ShloMosaic.ValueIdx Idealize.SL.Sem
open Cert.KernelIdeal

/-! ## The stored values at an index -/

/-- The zero offsets of an access to a whole buffer. -/
theorem reduce_zero_offsets : (![0, 0, 0, 0] : Fin 4 → Nat) = fun _ => 0 := funext fun a => by fin_cases a <;> rfl

/-- The first stored value at (r, c', 0, 0): the sum of plane (r, c') of the loaded block. -/
theorem reduce_pay_sum (v : FVec Ideal S4x64x112x112 .f32) (r : Fin 4) (c' : Fin 64) :
    Gen.k0_pay1 (F := Ideal) v (ix4 r c' 0 0) = ∑ p : Fin 112, ∑ q : Fin 112, v (ix4 r c' p q) := by
  unfold Gen.k0_pay1
  refine (shapeCast_apply _ _ (ix4 r c' 0 0) (ix2 r c') ?_).trans ?_
  · rw [Shape.rowMajor_val_two, Shape.rowMajor_val_four]
    show r.val * 64 + c'.val = ((r.val * 64 + c'.val) * 1 + 0) * 1 + 0
    omega
  · exact Cert.LibPlaneSums.reduceAdd_plane (B := 4) _ v r c'

/-- The second stored value at (r, c', 0, 0): the sum of the squares over plane (r, c') of the loaded block. -/
theorem reduce_pay_sumsq (v : FVec Ideal S4x64x112x112 .f32) (r : Fin 4) (c' : Fin 64) :
    Gen.k0_pay2 (F := Ideal) v (ix4 r c' 0 0) = ∑ p : Fin 112, ∑ q : Fin 112, v (ix4 r c' p q) * v (ix4 r c' p q) := by
  unfold Gen.k0_pay2
  refine (shapeCast_apply _ _ (ix4 r c' 0 0) (ix2 r c') ?_).trans ?_
  · rw [Shape.rowMajor_val_two, Shape.rowMajor_val_four]
    show r.val * 64 + c'.val = ((r.val * 64 + c'.val) * 1 + 0) * 1 + 0
    omega
  · exact Cert.LibPlaneSums.reduceAdd_plane (B := 4) _ (mulf v v) r c'

variable (V : (c : Dev nD) → (b : Ref sig .tc) → Buf (Elt Ideal) ((c : Thread nD τ).loc b))

/-! ## The blocks -/

/-- The block index maps, decided over the 16 points: at point t every window's block is block t along the sample
    axis and block 0 along the others. -/
theorem reduce_index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The tensor's block at point t is samples 4t .. 4t+3: its entry (r, c', p, q) is the tensor's entry (4t + r, c', p, q). -/
theorem reduce_block_apply (c : Dev nD) (t : Fin cfg0.N) (y : S4x64x112x112.Idx) (k : S64x64x112x112.Idx)
    (h0 : (k 0).val = 4 * t.val + (y 0).val) (h1 : (k 1).val = (y 1).val) (h2 : (k 2).val = (y 2).val) (h3 : (k 3).val = (y 3).val) :
    (Gen.iblk0 V c 0 t : Vec Ideal S4x64x112x112 .f32) y = (V c main_arg0 : FVec Ideal S64x64x112x112 .f32) k := by
  obtain ⟨e0, e1, e2, e3, -⟩ := reduce_index_facts t
  unfold Gen.iblk0
  rw [View.read_apply]
  show V c main_arg0 _ = V c main_arg0 _
  congr 1
  funext a
  apply Fin.ext
  match a with
  | ⟨0, _⟩ => show win0_0.index t (0 : Fin 4) * 4 + 1 * (y 0).val = (k 0).val; rw [e0, h0]; omega
  | ⟨1, _⟩ => show win0_0.index t (1 : Fin 4) * 64 + 1 * (y 1).val = (k 1).val; rw [e1, h1]; omega
  | ⟨2, _⟩ => show win0_0.index t (2 : Fin 4) * 112 + 1 * (y 2).val = (k 2).val; rw [e2, h2]; omega
  | ⟨3, _⟩ => show win0_0.index t (3 : Fin 4) * 112 + 1 * (y 3).val = (k 3).val; rw [e3, h3]; omega

/-! ## The first result: plane sums -/

/-- What the first result array ends holding: at (b, c', 0, 0) the sum of plane (b, c') of the tensor. -/
abbrev planeSums (a0 : S64x64x112x112.Idx → EReal) : S64x64x1x1.Idx → EReal :=
  fun i => Cert.BlendNorm.s1 a0 (i 0) (i 1)

/-- What point t writes back to the first result is rows 4t .. 4t+3 of the plane sums of the tensor. -/
theorem reduce_flushed_sum (c : Dev nD) (t : Fin cfg0.N) :
    (Gen.dat0 (F := Ideal) V c).flushed 1 t
      = ((cfg0.win 1).blk t).view.read (Elt Ideal) (planeSums (V c main_arg0)) := by
  show (cfg0.win 1).cut (grid0.coords t) ((Gen.dat0 V c).after 1 t) = _
  rw [Gen.after0_1]
  unfold Gen.out0_1
  rw [View.canon_unit_zero reduce_zero_offsets]
  simp only [View.ld_unit_zero (S := S4x64x112x112) reduce_zero_offsets]
  obtain ⟨-, -, -, -, e0, e1, -⟩ := reduce_index_facts t
  funext (j : S4x64x1x1.Idx)
  obtain ⟨r, c', z1, z2, rfl⟩ : ∃ (r : Fin 4) (c' : Fin 64) (z1 z2 : Fin 1), j = ix4 r c' z1 z2 :=
    ⟨j 0, j 1, j 2, j 3, eq_ix4 j⟩
  obtain rfl : z1 = 0 := Subsingleton.elim _ _
  obtain rfl : z2 = 0 := Subsingleton.elim _ _
  show Gen.k0_pay1 (Gen.iblk0 V c 0 t) (ix4 r c' 0 0)
    = Cert.BlendNorm.s1 (V c main_arg0) ((((cfg0.win 1).blk t).view.emb (ix4 r c' 0 0)) 0)
        ((((cfg0.win 1).blk t).view.emb (ix4 r c' 0 0)) 1)
  refine (reduce_pay_sum _ r c').trans ?_
  unfold Cert.BlendNorm.s1
  refine Finset.sum_congr rfl fun p _ => Finset.sum_congr rfl fun q _ => ?_
  refine reduce_block_apply V c t _ _ ?_ ?_ rfl rfl
  · show win0_1.index t (0 : Fin 4) * 4 + 1 * r.val = 4 * t.val + r.val
    rw [e0]; omega
  · show win0_1.index t (1 : Fin 4) * 64 + 1 * c'.val = c'.val
    rw [e1]; omega

/-- An index of the first result is in point t's block iff each coordinate is in the block's range on its axis. -/
theorem reduce_mem_block_sum (t : Fin cfg0.N) (i : S64x64x1x1.Idx) :
    i ∈ ((cfg0.win 1).blk t).view.set ↔ ∀ a : Fin 4, win0_1.index t a * S4x64x1x1.size a ≤ (i a).val
      ∧ (i a).val < win0_1.index t a * S4x64x1x1.size a + S4x64x1x1.size a := by
  show i ∈ ((View.whole main_v0_0).slice (win0_1.rect t)).set ↔ _
  rw [View.set_slice_whole, Rect.mem_set_unit]
  exact Iff.rfl

/-- Row b of the first result lies in the block of point b / 4, so the 16 blocks cover the array. -/
theorem reduce_cover_sum (i : S64x64x1x1.Idx) :
    ∃ t : Fin cfg0.N, (cfg0.win 1).flush t = true ∧ i ∈ ((cfg0.win 1).blk t).view.set := by
  have hN : cfg0.N = 16 := Gen.N_0
  have hi0 : (i 0).val < 64 := (i 0).isLt
  have hi1 : (i 1).val < 64 := (i 1).isLt
  have hi2 : (i 2).val < 1 := (i 2).isLt
  have hi3 : (i 3).val < 1 := (i 3).isLt
  refine ⟨⟨(i 0).val / 4, by omega⟩, Gen.flush0_1 _, ?_⟩
  obtain ⟨-, -, -, -, e0, e1, e2, e3, -⟩ := reduce_index_facts ⟨(i 0).val / 4, by omega⟩
  rw [reduce_mem_block_sum]
  intro a
  match a with
  | ⟨0, _⟩ =>
    show win0_1.index ⟨(i 0).val / 4, _⟩ (0 : Fin 4) * 4 ≤ (i 0).val ∧ (i 0).val < win0_1.index ⟨(i 0).val / 4, _⟩ (0 : Fin 4) * 4 + 4
    rw [e0]; show (i 0).val / 4 * 4 ≤ (i 0).val ∧ (i 0).val < (i 0).val / 4 * 4 + 4; omega
  | ⟨1, _⟩ =>
    show win0_1.index ⟨(i 0).val / 4, _⟩ (1 : Fin 4) * 64 ≤ (i 1).val ∧ (i 1).val < win0_1.index ⟨(i 0).val / 4, _⟩ (1 : Fin 4) * 64 + 64
    rw [e1]; omega
  | ⟨2, _⟩ =>
    show win0_1.index ⟨(i 0).val / 4, _⟩ (2 : Fin 4) * 1 ≤ (i 2).val ∧ (i 2).val < win0_1.index ⟨(i 0).val / 4, _⟩ (2 : Fin 4) * 1 + 1
    rw [e2]; omega
  | ⟨3, _⟩ =>
    show win0_1.index ⟨(i 0).val / 4, _⟩ (3 : Fin 4) * 1 ≤ (i 3).val ∧ (i 3).val < win0_1.index ⟨(i 0).val / 4, _⟩ (3 : Fin 4) * 1 + 1
    rw [e3]; omega

/-- So the first result array ends holding the plane sums of the tensor. -/
theorem reduce_final_sum (c : Dev nD) :
    (Gen.dat0 (F := Ideal) V c).arrAt 1 cfg0.N = planeSums (V c main_arg0) :=
  (Gen.dat0 (F := Ideal) V c).arrAt_eq_of_cover 1 (planeSums (V c main_arg0)) (fun t _ => reduce_flushed_sum V c t)
    reduce_cover_sum

/-- After the first launch its first result holds the plane sums of the tensor it was entered with. -/
theorem region0_sum (c : Dev nD) (x : FVec Ideal S64x64x112x112 .f32) (hx : (V c main_arg0 : FVec Ideal S64x64x112x112 .f32) = x)
    (b c' : Fin 64) :
    ((Gen.dat0 (F := Ideal) V c).arrAt 1 cfg0.N : FVec Ideal S64x64x1x1 .f32) (ix4 b c' 0 0) = Cert.BlendNorm.s1 x b c' := by
  rw [reduce_final_sum V c, hx]

/-! ## The second result: plane sums of squares -/

/-- What the second result array ends holding: at (b, c', 0, 0) the sum of the squares over plane (b, c') of the tensor. -/
abbrev planeSumsq (a0 : S64x64x112x112.Idx → EReal) : S64x64x1x1.Idx → EReal :=
  fun i => Cert.BlendNorm.s2 a0 (i 0) (i 1)

/-- What point t writes back to the second result is rows 4t .. 4t+3 of the plane sums of squares of the tensor. -/
theorem reduce_flushed_sumsq (c : Dev nD) (t : Fin cfg0.N) :
    (Gen.dat0 (F := Ideal) V c).flushed 2 t
      = ((cfg0.win 2).blk t).view.read (Elt Ideal) (planeSumsq (V c main_arg0)) := by
  show (cfg0.win 2).cut (grid0.coords t) ((Gen.dat0 V c).after 2 t) = _
  rw [Gen.after0_2]
  unfold Gen.out0_2
  rw [View.canon_unit_zero reduce_zero_offsets]
  simp only [View.ld_unit_zero (S := S4x64x112x112) reduce_zero_offsets]
  obtain ⟨-, -, -, -, -, -, -, -, e0, e1, -⟩ := reduce_index_facts t
  funext (j : S4x64x1x1.Idx)
  obtain ⟨r, c', z1, z2, rfl⟩ : ∃ (r : Fin 4) (c' : Fin 64) (z1 z2 : Fin 1), j = ix4 r c' z1 z2 :=
    ⟨j 0, j 1, j 2, j 3, eq_ix4 j⟩
  obtain rfl : z1 = 0 := Subsingleton.elim _ _
  obtain rfl : z2 = 0 := Subsingleton.elim _ _
  show Gen.k0_pay2 (Gen.iblk0 V c 0 t) (ix4 r c' 0 0)
    = Cert.BlendNorm.s2 (V c main_arg0) ((((cfg0.win 2).blk t).view.emb (ix4 r c' 0 0)) 0)
        ((((cfg0.win 2).blk t).view.emb (ix4 r c' 0 0)) 1)
  refine (reduce_pay_sumsq _ r c').trans ?_
  unfold Cert.BlendNorm.s2
  refine Finset.sum_congr rfl fun p _ => Finset.sum_congr rfl fun q _ => ?_
  have hb : (Gen.iblk0 V c 0 t : Vec Ideal S4x64x112x112 .f32) (ix4 r c' p q)
      = (V c main_arg0 : FVec Ideal S64x64x112x112 .f32)
          (ix4 ((((cfg0.win 2).blk t).view.emb (ix4 r c' 0 0)) 0) ((((cfg0.win 2).blk t).view.emb (ix4 r c' 0 0)) 1) p q) := by
    refine reduce_block_apply V c t _ _ ?_ ?_ rfl rfl
    · show win0_2.index t (0 : Fin 4) * 4 + 1 * r.val = 4 * t.val + r.val
      rw [e0]; omega
    · show win0_2.index t (1 : Fin 4) * 64 + 1 * c'.val = c'.val
      rw [e1]; omega
  rw [hb]

/-- An index of the second result is in point t's block iff each coordinate is in the block's range on its axis. -/
theorem reduce_mem_block_sumsq (t : Fin cfg0.N) (i : S64x64x1x1.Idx) :
    i ∈ ((cfg0.win 2).blk t).view.set ↔ ∀ a : Fin 4, win0_2.index t a * S4x64x1x1.size a ≤ (i a).val
      ∧ (i a).val < win0_2.index t a * S4x64x1x1.size a + S4x64x1x1.size a := by
  show i ∈ ((View.whole main_v0_1).slice (win0_2.rect t)).set ↔ _
  rw [View.set_slice_whole, Rect.mem_set_unit]
  exact Iff.rfl

/-- Row b of the second result lies in the block of point b / 4, so the 16 blocks cover the array. -/
theorem reduce_cover_sumsq (i : S64x64x1x1.Idx) :
    ∃ t : Fin cfg0.N, (cfg0.win 2).flush t = true ∧ i ∈ ((cfg0.win 2).blk t).view.set := by
  have hN : cfg0.N = 16 := Gen.N_0
  have hi0 : (i 0).val < 64 := (i 0).isLt
  have hi1 : (i 1).val < 64 := (i 1).isLt
  have hi2 : (i 2).val < 1 := (i 2).isLt
  have hi3 : (i 3).val < 1 := (i 3).isLt
  refine ⟨⟨(i 0).val / 4, by omega⟩, Gen.flush0_2 _, ?_⟩
  obtain ⟨-, -, -, -, -, -, -, -, e0, e1, e2, e3⟩ := reduce_index_facts ⟨(i 0).val / 4, by omega⟩
  rw [reduce_mem_block_sumsq]
  intro a
  match a with
  | ⟨0, _⟩ =>
    show win0_2.index ⟨(i 0).val / 4, _⟩ (0 : Fin 4) * 4 ≤ (i 0).val ∧ (i 0).val < win0_2.index ⟨(i 0).val / 4, _⟩ (0 : Fin 4) * 4 + 4
    rw [e0]; show (i 0).val / 4 * 4 ≤ (i 0).val ∧ (i 0).val < (i 0).val / 4 * 4 + 4; omega
  | ⟨1, _⟩ =>
    show win0_2.index ⟨(i 0).val / 4, _⟩ (1 : Fin 4) * 64 ≤ (i 1).val ∧ (i 1).val < win0_2.index ⟨(i 0).val / 4, _⟩ (1 : Fin 4) * 64 + 64
    rw [e1]; omega
  | ⟨2, _⟩ =>
    show win0_2.index ⟨(i 0).val / 4, _⟩ (2 : Fin 4) * 1 ≤ (i 2).val ∧ (i 2).val < win0_2.index ⟨(i 0).val / 4, _⟩ (2 : Fin 4) * 1 + 1
    rw [e2]; omega
  | ⟨3, _⟩ =>
    show win0_2.index ⟨(i 0).val / 4, _⟩ (3 : Fin 4) * 1 ≤ (i 3).val ∧ (i 3).val < win0_2.index ⟨(i 0).val / 4, _⟩ (3 : Fin 4) * 1 + 1
    rw [e3]; omega

/-- So the second result array ends holding the plane sums of squares of the tensor. -/
theorem reduce_final_sumsq (c : Dev nD) :
    (Gen.dat0 (F := Ideal) V c).arrAt 2 cfg0.N = planeSumsq (V c main_arg0) :=
  (Gen.dat0 (F := Ideal) V c).arrAt_eq_of_cover 2 (planeSumsq (V c main_arg0)) (fun t _ => reduce_flushed_sumsq V c t)
    reduce_cover_sumsq

/-- … and its second result the plane sums of squares. -/
theorem region0_sumsq (c : Dev nD) (x : FVec Ideal S64x64x112x112 .f32) (hx : (V c main_arg0 : FVec Ideal S64x64x112x112 .f32) = x)
    (b c' : Fin 64) :
    ((Gen.dat0 (F := Ideal) V c).arrAt 2 cfg0.N : FVec Ideal S64x64x1x1 .f32) (ix4 b c' 0 0) = Cert.BlendNorm.s2 x b c' := by
  rw [reduce_final_sumsq V c, hx]

end Cert.KernelIdeal.Blend

end
-- ==== Proof.KRegion1.lean ====
/-
  What the second launch leaves in its result array.

  The launch has 32 grid points; point t stages samples 2t, 2t+1 of the tensor and rows 2t, 2t+1 of the two
  64 x 64 x 1 x 1 coefficient tables; the body broadcasts each coefficient over its plane and stores x * a + b; the
  2 x 64 x 112 x 112 result blocks tile the result array.  So entry (b, c, p, q) of the result is
  x[b,c,p,q] * a[b,c,0,0] + b[b,c,0,0].
-/
import proofs.«109601_j76192719831877_1_alg».proof.Proof.Gen.KernelIdeal.Frame
import Idealize.ShloMosaic.Lib.ValueIdx
import Idealize.ShloMosaic.Lib.Pipeline.Value

set_option maxRecDepth 16384

noncomputable section

namespace Cert.KernelIdeal.Blend

open Idealize.ShloMosaic Idealize.ShloMosaic.TcCoe Idealize.ShloMosaic.ValueIdx Idealize.SL.Sem
open Cert.KernelIdeal

variable (V : (c : Dev nD) → (b : Ref sig .tc) → Buf (Elt Ideal) ((c : Thread nD τ).loc b))

namespace Affine

/-- The four zero offsets are the constant zero function. -/
theorem zero_offsets : (![0, 0, 0, 0] : Fin 4 → Nat) = fun _ => 0 := funext fun a => by fin_cases a <;> rfl

/-- The coefficient that multiplies (or is added to) entry `i`: the one of its sample and channel. -/
def coefIdx (i : S64x64x112x112.Idx) : S64x64x1x1.Idx := ix4 (i 0) (i 1) 0 0

/-- The affine map of a tensor by two per-(sample, channel) coefficient tables, entry by entry. -/
def affineOf (x : FVec Ideal S64x64x112x112 .f32) (a d : FVec Ideal S64x64x1x1 .f32) : FVec Ideal S64x64x112x112 .f32 :=
  fun i => x i * a (coefIdx i) + d (coefIdx i)

/-- The body's stored value at an entry of the block: the block's entry times its (sample, channel) coefficient plus the
    other table's. -/
theorem payload_apply (x0 : FVec Ideal S2x64x112x112 .f32) (a0 d0 : FVec Ideal S2x64x1x1 .f32)
    (r : Fin 2) (ch : Fin 64) (p q : Fin 112) :
    Gen.k1_pay1 x0 a0 d0 (ix4 r ch p q) = x0 (ix4 r ch p q) * a0 (ix4 r ch 0 0) + d0 (ix4 r ch 0 0) := by
  unfold Gen.k1_pay1
  rw [addf_apply, mulf_apply, shapeCast_self, shapeCast_self]
  rw [broadcastTo_apply a0 _ (ix4 r ch p q) (ix4 r ch 0 0) (fun k => by
        match k with
        | ⟨0, _⟩ => rfl
        | ⟨1, _⟩ => rfl
        | ⟨2, _⟩ => rfl
        | ⟨3, _⟩ => rfl),
      broadcastTo_apply d0 _ (ix4 r ch p q) (ix4 r ch 0 0) (fun k => by
        match k with
        | ⟨0, _⟩ => rfl
        | ⟨1, _⟩ => rfl
        | ⟨2, _⟩ => rfl
        | ⟨3, _⟩ => rfl)]

/-- Where the four windows' blocks sit, decided over the 32 grid points: point `t`'s block is at block row `t` and at
    block 0 on the other three axes. -/
theorem block_index : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 4) = t.val ∧ win1_1.index t (1 : Fin 4) = 0 ∧ win1_1.index t (2 : Fin 4) = 0 ∧ win1_1.index t (3 : Fin 4) = 0)
    ∧ (win1_2.index t (0 : Fin 4) = t.val ∧ win1_2.index t (1 : Fin 4) = 0 ∧ win1_2.index t (2 : Fin 4) = 0 ∧ win1_2.index t (3 : Fin 4) = 0)
    ∧ (win1_3.index t (0 : Fin 4) = t.val ∧ win1_3.index t (1 : Fin 4) = 0 ∧ win1_3.index t (2 : Fin 4) = 0 ∧ win1_3.index t (3 : Fin 4) = 0) :=
  (by decide +kernel : ∀ t : Fin grid1.N, _)

/-- Entry `y` of the tensor's block at point `t` is the tensor's entry at sample `2 t + y₀`, the other coordinates kept. -/
theorem tensor_block_apply (c : Dev nD) (t : Fin cfg1.N) (y : S2x64x112x112.Idx) (k : S64x64x112x112.Idx)
    (h0 : (k 0).val = 2 * t.val + (y 0).val) (h1 : (k 1).val = (y 1).val) (h2 : (k 2).val = (y 2).val) (h3 : (k 3).val = (y 3).val) :
    (Gen.iblk1 V c 0 t : FVec Ideal S2x64x112x112 .f32) y = (V c main_arg0 : FVec Ideal S64x64x112x112 .f32) k := by
  obtain ⟨⟨e0, e1, e2, e3⟩, -⟩ := block_index t
  unfold Gen.iblk1
  rw [View.read_apply]
  show V c main_arg0 _ = V c main_arg0 _
  congr 1
  funext a
  apply Fin.ext
  match a with
  | ⟨0, _⟩ => show win1_0.index t (0 : Fin 4) * 2 + 1 * (y 0).val = (k 0).val; rw [e0, h0]; omega
  | ⟨1, _⟩ => show win1_0.index t (1 : Fin 4) * 64 + 1 * (y 1).val = (k 1).val; rw [e1, h1]; omega
  | ⟨2, _⟩ => show win1_0.index t (2 : Fin 4) * 112 + 1 * (y 2).val = (k 2).val; rw [e2, h2]; omega
  | ⟨3, _⟩ => show win1_0.index t (3 : Fin 4) * 112 + 1 * (y 3).val = (k 3).val; rw [e3, h3]; omega

/-- Entry `y` of the first coefficient table's block at point `t` is the table's entry at row `2 t + y₀`. -/
theorem scale_block_apply (c : Dev nD) (t : Fin cfg1.N) (y : S2x64x1x1.Idx) (k : S64x64x1x1.Idx)
    (h0 : (k 0).val = 2 * t.val + (y 0).val) (h1 : (k 1).val = (y 1).val) (h2 : (k 2).val = (y 2).val) (h3 : (k 3).val = (y 3).val) :
    (Gen.iblk1 V c 1 t : FVec Ideal S2x64x1x1 .f32) y = (V c main_v61 : FVec Ideal S64x64x1x1 .f32) k := by
  obtain ⟨-, ⟨e0, e1, e2, e3⟩, -⟩ := block_index t
  unfold Gen.iblk1
  rw [View.read_apply]
  show V c main_v61 _ = V c main_v61 _
  congr 1
  funext a
  apply Fin.ext
  match a with
  | ⟨0, _⟩ => show win1_1.index t (0 : Fin 4) * 2 + 1 * (y 0).val = (k 0).val; rw [e0, h0]; omega
  | ⟨1, _⟩ => show win1_1.index t (1 : Fin 4) * 64 + 1 * (y 1).val = (k 1).val; rw [e1, h1]; omega
  | ⟨2, _⟩ => show win1_1.index t (2 : Fin 4) * 1 + 1 * (y 2).val = (k 2).val; rw [e2, h2]; omega
  | ⟨3, _⟩ => show win1_1.index t (3 : Fin 4) * 1 + 1 * (y 3).val = (k 3).val; rw [e3, h3]; omega

/-- Entry `y` of the second coefficient table's block at point `t` is the table's entry at row `2 t + y₀`. -/
theorem shift_block_apply (c : Dev nD) (t : Fin cfg1.N) (y : S2x64x1x1.Idx) (k : S64x64x1x1.Idx)
    (h0 : (k 0).val = 2 * t.val + (y 0).val) (h1 : (k 1).val = (y 1).val) (h2 : (k 2).val = (y 2).val) (h3 : (k 3).val = (y 3).val) :
    (Gen.iblk1 V c 2 t : FVec Ideal S2x64x1x1 .f32) y = (V c main_v62 : FVec Ideal S64x64x1x1 .f32) k := by
  obtain ⟨-, -, ⟨e0, e1, e2, e3⟩, -⟩ := block_index t
  unfold Gen.iblk1
  rw [View.read_apply]
  show V c main_v62 _ = V c main_v62 _
  congr 1
  funext a
  apply Fin.ext
  match a with
  | ⟨0, _⟩ => show win1_2.index t (0 : Fin 4) * 2 + 1 * (y 0).val = (k 0).val; rw [e0, h0]; omega
  | ⟨1, _⟩ => show win1_2.index t (1 : Fin 4) * 64 + 1 * (y 1).val = (k 1).val; rw [e1, h1]; omega
  | ⟨2, _⟩ => show win1_2.index t (2 : Fin 4) * 1 + 1 * (y 2).val = (k 2).val; rw [e2, h2]; omega
  | ⟨3, _⟩ => show win1_2.index t (3 : Fin 4) * 1 + 1 * (y 3).val = (k 3).val; rw [e3, h3]; omega

/-- Entry `y` of the result's block at point `t` sits in the result at sample `2 t + y₀`, the other coordinates kept. -/
theorem result_block_coord (t : Fin cfg1.N) (y : S2x64x112x112.Idx) (k : S64x64x112x112.Idx)
    (hk : k = ((cfg1.win 3).blk t).view.emb y) :
    (k 0).val = 2 * t.val + (y 0).val ∧ (k 1).val = (y 1).val ∧ (k 2).val = (y 2).val ∧ (k 3).val = (y 3).val := by
  obtain ⟨-, -, -, e0, e1, e2, e3⟩ := block_index t
  subst hk
  refine ⟨?_, ?_, ?_, ?_⟩
  · show win1_3.index t (0 : Fin 4) * 2 + 1 * (y 0).val = _; rw [e0]; omega
  · show win1_3.index t (1 : Fin 4) * 64 + 1 * (y 1).val = _; rw [e1]; omega
  · show win1_3.index t (2 : Fin 4) * 112 + 1 * (y 2).val = _; rw [e2]; omega
  · show win1_3.index t (3 : Fin 4) * 112 + 1 * (y 3).val = _; rw [e3]; omega

/-- What point `t` writes back is block `t` of the affine map of the three arrays the launch was entered with. -/
theorem flushed_eq (c : Dev nD) (t : Fin cfg1.N) :
    (Gen.dat1 (F := Ideal) V c).flushed 3 t
      = ((cfg1.win 3).blk t).view.read (Elt Ideal) (affineOf (V c main_arg0) (V c main_v61) (V c main_v62)) := by
  show (cfg1.win 3).cut (grid1.coords t) ((Gen.dat1 (F := Ideal) V c).after 3 t) = _
  rw [Gen.after1_3]
  unfold Gen.out1_3
  rw [View.canon_unit_zero zero_offsets]
  simp only [View.ld_unit_zero (S := S2x64x112x112) zero_offsets, View.ld_unit_zero (S := S2x64x1x1) zero_offsets]
  refine funext fun (j : S2x64x112x112.Idx) => ?_
  obtain ⟨r, ch, p, q, rfl⟩ : ∃ (r : Fin 2) (ch : Fin 64) (p q : Fin 112), j = ix4 r ch p q := ⟨j 0, j 1, j 2, j 3, eq_ix4 j⟩
  obtain ⟨k, hk⟩ : ∃ k : S64x64x112x112.Idx, k = ((cfg1.win 3).blk t).view.emb (ix4 r ch p q) := ⟨_, rfl⟩
  obtain ⟨k0, k1, k2, k3⟩ := result_block_coord t (ix4 r ch p q) k hk
  show Gen.k1_pay1 (Gen.iblk1 V c 0 t) (Gen.iblk1 V c 1 t) (Gen.iblk1 V c 2 t) (ix4 r ch p q)
    = affineOf (V c main_arg0) (V c main_v61) (V c main_v62) (((cfg1.win 3).blk t).view.emb (ix4 r ch p q))
  rw [← hk, payload_apply (Gen.iblk1 V c 0 t) (Gen.iblk1 V c 1 t) (Gen.iblk1 V c 2 t) r ch p q,
    tensor_block_apply V c t (ix4 r ch p q) k k0 k1 k2 k3,
    scale_block_apply V c t (ix4 r ch 0 0) (coefIdx k) k0 k1 rfl rfl,
    shift_block_apply V c t (ix4 r ch 0 0) (coefIdx k) k0 k1 rfl rfl]
  rfl

/-- Every entry of the result is in the block of the point that stages its sample: sample `b` is in block `b / 2`. -/
theorem covered (i : S64x64x112x112.Idx) :
    ∃ t : Fin cfg1.N, (cfg1.win 3).flush t = true ∧ i ∈ ((cfg1.win 3).blk t).view.set := by
  have hN : cfg1.N = 32 := Gen.N_1
  have hi0 : (i 0).val < 64 := (i 0).isLt
  have hi1 : (i 1).val < 64 := (i 1).isLt
  have hi2 : (i 2).val < 112 := (i 2).isLt
  have hi3 : (i 3).val < 112 := (i 3).isLt
  obtain ⟨t, ht⟩ : ∃ t : Fin cfg1.N, t.val = (i 0).val / 2 := ⟨⟨(i 0).val / 2, by rw [hN]; omega⟩, rfl⟩
  obtain ⟨-, -, -, e0, e1, e2, e3⟩ := block_index t
  refine ⟨t, Gen.flush1_3 t, ?_⟩
  show i ∈ ((View.whole main_v63).slice (win1_3.rect t)).set
  rw [View.set_slice_whole, Rect.mem_set_unit]
  intro a
  match a with
  | ⟨0, _⟩ =>
    show win1_3.index t (0 : Fin 4) * 2 ≤ (i 0).val ∧ (i 0).val < win1_3.index t (0 : Fin 4) * 2 + 2
    rw [e0, ht]; omega
  | ⟨1, _⟩ =>
    show win1_3.index t (1 : Fin 4) * 64 ≤ (i 1).val ∧ (i 1).val < win1_3.index t (1 : Fin 4) * 64 + 64
    rw [e1]; omega
  | ⟨2, _⟩ =>
    show win1_3.index t (2 : Fin 4) * 112 ≤ (i 2).val ∧ (i 2).val < win1_3.index t (2 : Fin 4) * 112 + 112
    rw [e2]; omega
  | ⟨3, _⟩ =>
    show win1_3.index t (3 : Fin 4) * 112 ≤ (i 3).val ∧ (i 3).val < win1_3.index t (3 : Fin 4) * 112 + 112
    rw [e3]; omega

/-- So the result array ends holding the affine map of the three arrays the launch was entered with. -/
theorem result_eq (c : Dev nD) :
    (Gen.dat1 (F := Ideal) V c).arrAt 3 cfg1.N = affineOf (V c main_arg0) (V c main_v61) (V c main_v62) :=
  (Gen.dat1 (F := Ideal) V c).arrAt_eq_of_cover 3 (affineOf (V c main_arg0) (V c main_v61) (V c main_v62))
    (fun t _ => flushed_eq V c t) covered

end Affine

/-- After the second launch its result is the affine map of the tensor by the two coefficient tables it was entered with. -/
theorem region1_affine (c : Dev nD) (x : FVec Ideal S64x64x112x112 .f32) (a d : FVec Ideal S64x64x1x1 .f32)
    (hx : (V c main_arg0 : FVec Ideal S64x64x112x112 .f32) = x) (ha : (V c main_v61 : FVec Ideal S64x64x1x1 .f32) = a)
    (hd : (V c main_v62 : FVec Ideal S64x64x1x1 .f32) = d) (b c' : Fin 64) (p q : Fin 112) :
    ((Gen.dat1 (F := Ideal) V c).arrAt 3 cfg1.N : FVec Ideal S64x64x112x112 .f32) (ix4 b c' p q)
      = x (ix4 b c' p q) * a (ix4 b c' 0 0) + d (ix4 b c' 0 0) := by
  subst hx ha hd
  rw [Affine.result_eq V c]
  rfl

end Cert.KernelIdeal.Blend

end
-- ==== Proof.KTerms.lean ====
/-
  The kernel's host operations between its two launches, as functions of arrays.

  From the two launch-0 results U1 = plane sums and U2 = plane sums of squares (shape 64 x 64 x 1 x 1), the global
  affine parameters, the two group tables and the labels, @main computes the two coefficient tables the second
  launch reads: `coefA` (what multiplies x) and `coefB` (what is added), each reshaped to 64 x 64 x 1 x 1.
  `route` is the row of a group table chosen by a sample's label: the label modulo 32 in Python's sense (the
  remainder, moved into [0, 32) when it is negative), negative indices wrapped once more, then a gather of that row.
-/
import proofs.«109601_j76192719831877_1_alg».proof.KernelIdeal
import proofs.«109601_j76192719831877_1_alg».proof.Proof.Gen.KernelIdeal
import Idealize.ShloMosaic.PureOps.Ideal

noncomputable section

namespace Cert.KernelIdeal.Blend

open Idealize.ShloMosaic Cert.KernelIdeal
open Cert.KernelIdeal.Facts₀

/-- The label modulo 32, in [0, 32) for every label: the truncated remainder, plus 32 where it is nonzero and
    its sign differs from the divisor's. (The divisor is guarded against zero as the source library does.) -/
def labelMod (lab : IVec S64 32) : IVec S64 32 :=
  let w : IVec S_ 32 := select (cmpi .eq (id (constantI S_ 32 32#32)) (constantI S_ 32 0#32)) (constantI S_ 32 1#32) (id (constantI S_ 32 32#32))
  let r : IVec S64 32 := Host.remsi lab (broadcastInDim S64 ![] bcast_S_S64 w)
  select
    (andi (cmpi .ne (cmpi .slt r (broadcastInDim S64 ![] bcast_S_S64 (constantI S_ 32 0#32)))
                    (broadcastInDim S64 ![] bcast_S_S64 (cmpi .slt w (constantI S_ 32 0#32))))
          (cmpi .ne r (broadcastInDim S64 ![] bcast_S_S64 (constantI S_ 32 0#32))))
    (addi r (broadcastInDim S64 ![] bcast_S_S64 w)) r

/-- The row index the gather starts at, one per sample: a negative index counts from the end. -/
def rowOf (lab : IVec S64 32) : IVec S64x1 32 :=
  broadcastInDim S64x1 ![0] bcast_S64_S64x1_0
    (select (cmpi .slt (labelMod lab) (broadcastInDim S64 ![] bcast_S_S64 (constantI S_ 32 0#32)))
      (addi (labelMod lab) (broadcastInDim S64 ![] bcast_S_S64 (constantI S_ 32 32#32))) (labelMod lab))

/-- Each sample's row of a group table. -/
def route (tbl : FVec Ideal S32x64 .f32) (lab : IVec S64 32) : FVec Ideal S64x64 .f32 :=
  Host.gather gather_S32x64_S64x1_S64x64_1_0_n_n_0_1_164 tbl (rowOf lab)

section
variable (U1 U2 : FVec Ideal S64x64x1x1 .f32) (γ β : FVec Ideal S64 .f32) (g bg : FVec Ideal S64x64 .f32)

/-- The plane sums as 64 x 64 tables. -/
def sum1 : FVec Ideal S64x64 .f32 := shapeCast S64x64 U1 shapeCasts_S64x64x1x1_S64x64
def sum2 : FVec Ideal S64x64 .f32 := shapeCast S64x64 U2 shapeCasts_S64x64x1x1_S64x64

/-- Per-sample mean and reciprocal standard deviation. -/
def muS : FVec Ideal S64x64 .f32 :=
  Host.divf (sum1 U1) (broadcastInDim S64x64 ![] bcast_S_S64x64 (constant (F := Ideal) S_ .f32 0x46440000#32))
def invS : FVec Ideal S64x64 .f32 :=
  Host.rsqrt (addf (subf (Host.divf (sum2 U2) (broadcastInDim S64x64 ![] bcast_S_S64x64 (constant (F := Ideal) S_ .f32 0x46440000#32)))
      (mulf (muS U1) (muS U1))) (broadcastInDim S64x64 ![] bcast_S_S64x64 (constant (F := Ideal) S_ .f32 0x3727C5AC#32)))

/-- Per-channel mean, reciprocal standard deviation and global scale, from the sums over the samples. -/
def muG : FVec Ideal S64 .f32 :=
  Host.divf (Host.reduceAdd (sum1 U1) (constant (F := Ideal) S_ .f32 0x00000000#32) reducesTo_S64x64_S64_d0 h_S_)
    (broadcastInDim S64 ![] bcast_S_S64 (constant (F := Ideal) S_ .f32 0x49440000#32))
def invG : FVec Ideal S64 .f32 :=
  Host.rsqrt (addf (subf (Host.divf (Host.reduceAdd (sum2 U2) (constant (F := Ideal) S_ .f32 0x00000000#32) reducesTo_S64x64_S64_d0 h_S_)
      (broadcastInDim S64 ![] bcast_S_S64 (constant (F := Ideal) S_ .f32 0x49440000#32))) (mulf (muG U1) (muG U1)))
    (broadcastInDim S64 ![] bcast_S_S64 (constant (F := Ideal) S_ .f32 0x3727C5AC#32)))
def scaleG : FVec Ideal S64 .f32 := mulf γ (invG U1 U2)

/-- The coefficient of x, and the additive coefficient, as 64 x 64 tables. -/
def tabA : FVec Ideal S64x64 .f32 :=
  addf (broadcastInDim S64x64 ![0, 1] bcast_S1x64_S64x64_0_1
      (mulf (broadcastInDim S1x64 ![] bcast_S_S1x64 (constant (F := Ideal) S_ .f32 0x3F000000#32))
        (broadcastInDim S1x64 ![1] bcast_S64_S1x64_1 (scaleG U1 U2 γ))))
    (mulf (mulf (broadcastInDim S64x64 ![] bcast_S_S64x64 (constant (F := Ideal) S_ .f32 0x3F000000#32)) (invS U1 U2)) g)
def tabB : FVec Ideal S64x64 .f32 :=
  addf (broadcastInDim S64x64 ![0, 1] bcast_S1x64_S64x64_0_1
      (mulf (broadcastInDim S1x64 ![] bcast_S_S1x64 (constant (F := Ideal) S_ .f32 0x3F000000#32))
        (subf (broadcastInDim S1x64 ![1] bcast_S64_S1x64_1 β)
          (mulf (broadcastInDim S1x64 ![1] bcast_S64_S1x64_1 (muG U1)) (broadcastInDim S1x64 ![1] bcast_S64_S1x64_1 (scaleG U1 U2 γ))))))
    (mulf (broadcastInDim S64x64 ![] bcast_S_S64x64 (constant (F := Ideal) S_ .f32 0x3F000000#32))
      (subf bg (mulf (mulf (muS U1) (invS U1 U2)) g)))

/-- The two tables as the second launch reads them. -/
def coefA : FVec Ideal S64x64x1x1 .f32 := shapeCast S64x64x1x1 (tabA U1 U2 γ g) shapeCasts_S64x64_S64x64x1x1
def coefB : FVec Ideal S64x64x1x1 .f32 := shapeCast S64x64x1x1 (tabB U1 U2 γ β g bg) shapeCasts_S64x64_S64x64x1x1

end

end Cert.KernelIdeal.Blend

end
-- ==== Proof.KHost.lean ====
/-
  The contents of the second launch's three input arrays, as the host operations between the launches leave them.

  Nothing writes the tensor, so the second launch finds it as launched.  The two coefficient tables are the host
  chain's functions `coefA` and `coefB` of the first launch's two results, the global parameters, and each
  sample's routed rows of the two group tables.
-/
import proofs.«109601_j76192719831877_1_alg».proof.Proof.Gen.KernelIdeal.Frame
import proofs.«109601_j76192719831877_1_alg».proof.Proof.KTerms
import Idealize.ShloMosaic.Lib.StableHlo.Run
import Idealize.ShloMosaic.Lib.ValueIdx

set_option maxRecDepth 16384

noncomputable section

namespace Cert.KernelIdeal.Blend

open Idealize.ShloMosaic Idealize.ShloMosaic.TcCoe Idealize.ShloMosaic.ValueIdx Idealize.SL.Sem
open Cert.KernelIdeal

variable (m : (ℓ : Loc nD τ sig) → Buf (Elt Ideal) ℓ) (ρ : Dev nD → PrngReg)

/-- The second launch finds the tensor as launched: no host operation between the launches writes it, and the
    first launch only reads it. -/
theorem entry1_x (c : Dev nD) :
    (Gen.V4 m ρ c main_arg0 : FVec Ideal S64x64x112x112 .f32) = m ((c.tc : Thread nD τ).loc main_arg0) :=
  calc Gen.W4 m ρ c (Proc.devRef .tc main_arg0)
    _ = Gen.W3 m ρ c (Proc.devRef .tc main_arg0) := StableHlo.after_of_forall_not_mem (b := Proc.devRef .tc main_arg0) _ _ (List.forall_iff_forall_mem.mp (by
          simp only [Gen.hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W2 m ρ c (Proc.devRef .tc main_arg0) := StableHlo.after_of_forall_not_mem (b := Proc.devRef .tc main_arg0) _ _ (List.forall_iff_forall_mem.mp (by
          simp only [Gen.hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg0) := StableHlo.after_of_forall_not_mem (b := Proc.devRef .tc main_arg0) _ _ (List.forall_iff_forall_mem.mp (by
          simp only [Gen.hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 m ρ c (Proc.devRef .tc main_arg0) := (Gen.W1_arr m ρ c 0).trans (((Gen.dat0 (Gen.V0 m ρ) c).arrAt_in 0 rfl _).trans (Gen.A_eq0 (Gen.V0 m ρ) c 0))
    _ = m ((c : Thread nD τ).loc main_arg0) := rfl

/-- The three stretches of host operations, run from any contents `W`, leave at the first table's buffer the
    function `coefA` of what `W` holds at the first launch's two results, the scale parameter, the first group
    table and the labels: each operation's result is its function of its operands' contents, composed. -/
theorem hostFold_coefA (W : Valuation τ sig (Elt Ideal)) :
    (StableHlo.after Gen.hostOps1_2 (StableHlo.after Gen.hostOps1_1 (StableHlo.after Gen.hostOps1 W)) (Proc.devRef .tc main_v61) : FVec Ideal S64x64x1x1 .f32)
      = coefA (W (Proc.devRef .tc main_v0_0)) (W (Proc.devRef .tc main_v0_1)) (W (Proc.devRef .tc main_arg1))
          (route (W (Proc.devRef .tc main_arg3)) (W (Proc.devRef .tc main_arg5))) := by
  simp only [Gen.hostOps1, Gen.hostOps1_1, Gen.hostOps1_2]
  after_results_simp
  simp only [StableHlo.TRef.ofBuf, StableHlo.TRef.toBuf, cast_eq]
  rfl

set_option maxHeartbeats 1000000 in
/-- … and at the second table's buffer the function `coefB`, which also reads the shift parameter and the second
    group table. -/
theorem hostFold_coefB (W : Valuation τ sig (Elt Ideal)) :
    (StableHlo.after Gen.hostOps1_2 (StableHlo.after Gen.hostOps1_1 (StableHlo.after Gen.hostOps1 W)) (Proc.devRef .tc main_v62) : FVec Ideal S64x64x1x1 .f32)
      = coefB (W (Proc.devRef .tc main_v0_0)) (W (Proc.devRef .tc main_v0_1)) (W (Proc.devRef .tc main_arg1))
          (W (Proc.devRef .tc main_arg2))
          (route (W (Proc.devRef .tc main_arg3)) (W (Proc.devRef .tc main_arg5)))
          (route (W (Proc.devRef .tc main_arg4)) (W (Proc.devRef .tc main_arg5))) := by
  simp only [Gen.hostOps1, Gen.hostOps1_1, Gen.hostOps1_2]
  after_results_simp
  simp only [StableHlo.TRef.ofBuf, StableHlo.TRef.toBuf, cast_eq]
  rfl

/-- A buffer the first launch does not own holds after it what it held at launch. -/
theorem afterLaunch0_arg1 (c : Dev nD) : Gen.W1 m ρ c (Proc.devRef .tc main_arg1) = m ((c.tc : Thread nD τ).loc main_arg1) :=
  Gen.W1_of_ne m ρ c main_arg1 (by decide)
theorem afterLaunch0_arg2 (c : Dev nD) : Gen.W1 m ρ c (Proc.devRef .tc main_arg2) = m ((c.tc : Thread nD τ).loc main_arg2) :=
  Gen.W1_of_ne m ρ c main_arg2 (by decide)
theorem afterLaunch0_arg3 (c : Dev nD) : Gen.W1 m ρ c (Proc.devRef .tc main_arg3) = m ((c.tc : Thread nD τ).loc main_arg3) :=
  Gen.W1_of_ne m ρ c main_arg3 (by decide)
theorem afterLaunch0_arg4 (c : Dev nD) : Gen.W1 m ρ c (Proc.devRef .tc main_arg4) = m ((c.tc : Thread nD τ).loc main_arg4) :=
  Gen.W1_of_ne m ρ c main_arg4 (by decide)
theorem afterLaunch0_arg5 (c : Dev nD) : Gen.W1 m ρ c (Proc.devRef .tc main_arg5) = m ((c.tc : Thread nD τ).loc main_arg5) :=
  Gen.W1_of_ne m ρ c main_arg5 (by decide)

/-- The second launch finds the first coefficient table at `coefA` of the first launch's results. -/
theorem entry1_a (c : Dev nD) :
    (Gen.V4 m ρ c main_v61 : FVec Ideal S64x64x1x1 .f32)
      = coefA (Gen.V1 m ρ c main_v0_0) (Gen.V1 m ρ c main_v0_1) (m ((c.tc : Thread nD τ).loc main_arg1))
          (route (m ((c.tc : Thread nD τ).loc main_arg3)) (m ((c.tc : Thread nD τ).loc main_arg5))) := by
  rw [← afterLaunch0_arg1 m ρ c, ← afterLaunch0_arg3 m ρ c, ← afterLaunch0_arg5 m ρ c]
  exact hostFold_coefA (Gen.W1 m ρ c)

/-- … and the second at `coefB`. -/
theorem entry1_b (c : Dev nD) :
    (Gen.V4 m ρ c main_v62 : FVec Ideal S64x64x1x1 .f32)
      = coefB (Gen.V1 m ρ c main_v0_0) (Gen.V1 m ρ c main_v0_1) (m ((c.tc : Thread nD τ).loc main_arg1))
          (m ((c.tc : Thread nD τ).loc main_arg2))
          (route (m ((c.tc : Thread nD τ).loc main_arg3)) (m ((c.tc : Thread nD τ).loc main_arg5)))
          (route (m ((c.tc : Thread nD τ).loc main_arg4)) (m ((c.tc : Thread nD τ).loc main_arg5))) := by
  rw [← afterLaunch0_arg1 m ρ c, ← afterLaunch0_arg2 m ρ c, ← afterLaunch0_arg3 m ρ c, ← afterLaunch0_arg4 m ρ c,
    ← afterLaunch0_arg5 m ρ c]
  exact hostFold_coefB (Gen.W1 m ρ c)

end Cert.KernelIdeal.Blend

end
-- ==== Proof.KRead.lean ====
/-
  The two coefficient tables read at an index.

  Given that the first launch's results hold the plane sums s1 and s2 of a tensor x, entry (b, c, 0, 0) of `coefA`
  is the kernel's coefficient kA x gamma g b c of the specification and that of `coefB` is kB.  Each host line is
  read at the index: a reshape between 64 x 64 x 1 x 1 and 64 x 64 keeps (b, c); a scalar broadcast reads the scalar; a
  [64] -> [1, 64] -> [64, 64] broadcast reads column c; the sum over samples is the initial value 0 plus the sum.
-/
import proofs.«109601_j76192719831877_1_alg».proof.Proof.KTerms
import proofs.«109601_j76192719831877_1_alg».proof.Proof.Spec
import proofs.«109601_j76192719831877_1_alg».proof.Proof.LibPlaneSums
import Idealize.ShloMosaic.Lib.Pipeline.Value
import Idealize.ShloMosaic.Lib.IdealHost

set_option maxRecDepth 16384

noncomputable section

namespace Cert.KernelIdeal.Blend

open Idealize.ShloMosaic Idealize.ShloMosaic.TcCoe Idealize.ShloMosaic.ValueIdx Idealize.SL.Sem
open Cert.KernelIdeal
open Cert.KernelIdeal.Facts₀

/-! ## Single operations at an index -/

/-- A scalar constant broadcast to any shape reads the extended real its word encodes. -/
theorem bscalar_apply {T : Shape} (h : S_.BroadcastsInDim T ![]) (w : BitVec 32) (j : T.Idx) :
    broadcastInDim T ![] h (constant (F := Ideal) S_ .f32 w) j = Ideal.ofBits .f32 w := by
  rw [broadcastInDim_scalar_apply]; rfl

/-- The host's reciprocal square root at an index is the extended reals'. -/
theorem hostRsqrt_apply {s : Shape} (a : FVec Ideal s .f32) (i : s.Idx) : Host.rsqrt a i = Ideal.rsqrt (a i) := rfl

/-- A 64 x 64 x 1 x 1 array reshaped to 64 x 64 keeps (b, c). -/
theorem cast42_apply (U : FVec Ideal S64x64x1x1 .f32) (b c : Fin 64) :
    shapeCast S64x64 U shapeCasts_S64x64x1x1_S64x64 (ix2 b c) = U (ix4 b c 0 0) := by
  refine shapeCast_apply U _ (ix2 b c) (ix4 b c 0 0) ?_
  rw [Shape.rowMajor_val_four, Shape.rowMajor_val_two]
  simp

/-- A 64 x 64 table reshaped to 64 x 64 x 1 x 1 keeps (b, c). -/
theorem cast24_apply (T : FVec Ideal S64x64 .f32) (b c : Fin 64) :
    shapeCast S64x64x1x1 T shapeCasts_S64x64_S64x64x1x1 (ix4 b c 0 0) = T (ix2 b c) := by
  refine shapeCast_apply T _ (ix4 b c 0 0) (ix2 b c) ?_
  rw [Shape.rowMajor_val_four, Shape.rowMajor_val_two]
  simp

/-- A channel vector broadcast to one row reads the channel's entry. -/
theorem row_apply (v : FVec Ideal S64 .f32) (c : Fin 64) :
    broadcastInDim S1x64 ![1] bcast_S64_S1x64_1 v (ix2 0 c) = v (ix1 c) := by
  refine broadcastInDim_apply _ _ v (ix2 0 c) (ix1 c) ?_
  intro a
  match a with
  | ⟨0, _⟩ => rfl

/-- A row broadcast down the samples reads the row's entry in the same column. -/
theorem rows_apply (r : FVec Ideal S1x64 .f32) (b c : Fin 64) :
    broadcastInDim S64x64 ![0, 1] bcast_S1x64_S64x64_0_1 r (ix2 b c) = r (ix2 0 c) := by
  refine broadcastInDim_apply _ _ r (ix2 b c) (ix2 0 c) ?_
  intro a
  match a with
  | ⟨0, _⟩ => rfl
  | ⟨1, _⟩ => rfl

/-! ## The host lines at an index -/

section
variable (U1 U2 : FVec Ideal S64x64x1x1 .f32) (γ β : FVec Ideal S64 .f32) (g bg : FVec Ideal S64x64 .f32)

open Cert.BlendNorm

theorem sum1_apply (b c : Fin 64) : sum1 U1 (ix2 b c) = U1 (ix4 b c 0 0) := cast42_apply U1 b c

theorem sum2_apply (b c : Fin 64) : sum2 U2 (ix2 b c) = U2 (ix4 b c 0 0) := cast42_apply U2 b c

/-- The per-sample mean: the plane sum over the plane's size. -/
theorem muS_apply (b c : Fin 64) : muS U1 (ix2 b c) = Ideal.div (U1 (ix4 b c 0 0)) cHW := by
  unfold muS
  rw [hostDivf_apply, sum1_apply, bscalar_apply]

/-- The per-sample reciprocal standard deviation. -/
theorem invS_apply (b c : Fin 64) :
    invS U1 U2 (ix2 b c)
      = Ideal.rsqrt (Ideal.div (U2 (ix4 b c 0 0)) cHW - muS U1 (ix2 b c) * muS U1 (ix2 b c) + cEps) := by
  unfold invS
  rw [hostRsqrt_apply, addf_apply, subf_apply, hostDivf_apply, mulf_apply, sum2_apply, bscalar_apply, bscalar_apply]

/-- The sum of a table down a column, from the initial value 0. -/
theorem colSum_apply (T : FVec Ideal S64x64 .f32) (c : Fin 64) :
    Host.reduceAdd T (constant (F := Ideal) S_ .f32 0x00000000#32) reducesTo_S64x64_S64_d0 h_S_ (ix1 c)
      = ∑ b : Fin 64, T (ix2 b c) := by
  rw [hostReduceAdd_apply, Cert.LibPlaneSums.hostReduceAdd_rows, constant_apply, Ideal.ofBits_zero_f32, zero_add]

/-- The per-channel mean: the sum over the samples of the plane sums, over the batch's size. -/
theorem muG_apply (c : Fin 64) : muG U1 (ix1 c) = Ideal.div (∑ b : Fin 64, U1 (ix4 b c 0 0)) cN := by
  unfold muG
  rw [hostDivf_apply, colSum_apply, bscalar_apply]
  simp only [sum1_apply]

/-- The per-channel reciprocal standard deviation. -/
theorem invG_apply (c : Fin 64) :
    invG U1 U2 (ix1 c)
      = Ideal.rsqrt (Ideal.div (∑ b : Fin 64, U2 (ix4 b c 0 0)) cN - muG U1 (ix1 c) * muG U1 (ix1 c) + cEps) := by
  unfold invG
  rw [hostRsqrt_apply, addf_apply, subf_apply, hostDivf_apply, mulf_apply, colSum_apply, bscalar_apply, bscalar_apply]
  simp only [sum2_apply]

/-- The global scale. -/
theorem scaleG_apply (c : Fin 64) : scaleG U1 U2 γ (ix1 c) = γ (ix1 c) * invG U1 U2 (ix1 c) := rfl

/-- The coefficient of x at (b, c). -/
theorem tabA_apply (b c : Fin 64) :
    tabA U1 U2 γ g (ix2 b c)
      = cHalf * scaleG U1 U2 γ (ix1 c) + cHalf * invS U1 U2 (ix2 b c) * g (ix2 b c) := by
  unfold tabA
  rw [addf_apply, rows_apply, mulf_apply, bscalar_apply, row_apply, mulf_apply, mulf_apply, bscalar_apply]

/-- The additive coefficient at (b, c). -/
theorem tabB_apply (b c : Fin 64) :
    tabB U1 U2 γ β g bg (ix2 b c)
      = cHalf * (β (ix1 c) - muG U1 (ix1 c) * scaleG U1 U2 γ (ix1 c))
        + cHalf * (bg (ix2 b c) - muS U1 (ix2 b c) * invS U1 U2 (ix2 b c) * g (ix2 b c)) := by
  unfold tabB
  rw [addf_apply, rows_apply, mulf_apply, bscalar_apply, subf_apply, row_apply, mulf_apply, row_apply, row_apply,
    mulf_apply, bscalar_apply, subf_apply, mulf_apply, mulf_apply]

theorem coefA_eq (b c : Fin 64) : coefA U1 U2 γ g (ix4 b c 0 0) = tabA U1 U2 γ g (ix2 b c) := cast24_apply _ b c

theorem coefB_eq (b c : Fin 64) : coefB U1 U2 γ β g bg (ix4 b c 0 0) = tabB U1 U2 γ β g bg (ix2 b c) := cast24_apply _ b c

end

/-! ## The tables against the specification's scalars -/

section
variable (x : FVec Ideal S64x64x112x112 .f32) (U1 U2 : FVec Ideal S64x64x1x1 .f32) (γ β : FVec Ideal S64 .f32)
  (g bg : FVec Ideal S64x64 .f32)
  (h1 : ∀ b c : Fin 64, U1 (ix4 b c 0 0) = Cert.BlendNorm.s1 x b c)
  (h2 : ∀ b c : Fin 64, U2 (ix4 b c 0 0) = Cert.BlendNorm.s2 x b c)

open Cert.BlendNorm

include h1 in
theorem muS_eq (b c : Fin 64) : muS U1 (ix2 b c) = kMuS x b c := by
  rw [muS_apply, h1]; rfl

include h1 h2 in
theorem invS_eq (b c : Fin 64) : invS U1 U2 (ix2 b c) = kInvS x b c := by
  rw [invS_apply, muS_eq x U1 h1, h2]; rfl

include h1 in
theorem muG_eq (c : Fin 64) : muG U1 (ix1 c) = kMuG x c := by
  rw [muG_apply, Finset.sum_congr rfl (fun b _ => h1 b c)]; rfl

include h1 h2 in
theorem invG_eq (c : Fin 64) : invG U1 U2 (ix1 c) = kInvG x c := by
  rw [invG_apply, muG_eq x U1 h1, Finset.sum_congr rfl (fun b _ => h2 b c)]; rfl

end

open Cert.BlendNorm in
/-- Entry (b, c) of the coefficient of x. -/
theorem coefA_apply (x : FVec Ideal S64x64x112x112 .f32) (U1 U2 : FVec Ideal S64x64x1x1 .f32) (γ : FVec Ideal S64 .f32)
    (g : FVec Ideal S64x64 .f32) (h1 : ∀ b c : Fin 64, U1 (ix4 b c 0 0) = s1 x b c) (h2 : ∀ b c : Fin 64, U2 (ix4 b c 0 0) = s2 x b c)
    (b c : Fin 64) : coefA U1 U2 γ g (ix4 b c 0 0) = kA x γ g b c := by
  rw [coefA_eq, tabA_apply, scaleG_apply, invS_eq x U1 U2 h1 h2, invG_eq x U1 U2 h1 h2]
  rfl

open Cert.BlendNorm in
/-- Entry (b, c) of the additive coefficient. -/
theorem coefB_apply (x : FVec Ideal S64x64x112x112 .f32) (U1 U2 : FVec Ideal S64x64x1x1 .f32) (γ β : FVec Ideal S64 .f32)
    (g bg : FVec Ideal S64x64 .f32) (h1 : ∀ b c : Fin 64, U1 (ix4 b c 0 0) = s1 x b c) (h2 : ∀ b c : Fin 64, U2 (ix4 b c 0 0) = s2 x b c)
    (b c : Fin 64) : coefB U1 U2 γ β g bg (ix4 b c 0 0) = kB x γ β g bg b c := by
  rw [coefB_eq, tabB_apply, scaleG_apply, muS_eq x U1 h1, invS_eq x U1 U2 h1 h2, muG_eq x U1 h1, invG_eq x U1 U2 h1 h2]
  rfl

end Cert.KernelIdeal.Blend

end
-- ==== Proof.OutArr.lean ====
/-
  The common result array: the kernel's scalar formula at every index of the tensor's shape, and the extensionality
  principle that an array agreeing with it at every (b, c, p, q) is it.
-/
import proofs.«109601_j76192719831877_1_alg».proof.Proof.Spec

noncomputable section

namespace Cert.BlendNorm

open Idealize.ShloMosaic Idealize.ShloMosaic.ValueIdx

variable (x : X4.Idx → EReal) (γ β : V1.Idx → EReal) (g bg : P2.Idx → EReal)

/-- The result as one function of the index. -/
def outArr : X4.Idx → EReal := fun i => kOut x γ β g bg (i 0) (i 1) (i 2) (i 3)

/-- An array that is the kernel's formula at every coordinate quadruple is `outArr`. -/
theorem eq_outArr (f : X4.Idx → EReal) (h : ∀ (b c : Fin 64) (p q : Fin 112), f (ix4 b c p q) = kOut x γ β g bg b c p q) :
    f = outArr x γ β g bg := by
  funext i
  obtain ⟨b, c, p, q, rfl⟩ : ∃ (b c : Fin 64) (p q : Fin 112), i = ix4 b c p q := ⟨i 0, i 1, i 2, i 3, eq_ix4 i⟩
  exact h b c p q

end Cert.BlendNorm

end
-- ==== Proof.KValue.lean ====
/-
  The kernel's result array as a function of its arguments.

  The second launch leaves x * a + d with a, d the coefficient tables it was entered with; those are the host chain's
  functions of the first launch's results, which hold the plane sums of the tensor; read at (b, c, 0, 0) the tables are
  the specification's kA and kB.  So the result is the specification's kOut at every index.
-/
import proofs.«109601_j76192719831877_1_alg».proof.Proof.KRun
import proofs.«109601_j76192719831877_1_alg».proof.Proof.KRegion0
import proofs.«109601_j76192719831877_1_alg».proof.Proof.KRegion1
import proofs.«109601_j76192719831877_1_alg».proof.Proof.KHost
import proofs.«109601_j76192719831877_1_alg».proof.Proof.KRead
import proofs.«109601_j76192719831877_1_alg».proof.Proof.OutArr

set_option maxRecDepth 16384

noncomputable section

namespace Cert.KernelIdeal.Blend

open Idealize.ShloMosaic Idealize.ShloMosaic.TcCoe Idealize.ShloMosaic.ValueIdx Idealize.SL.Sem
open Cert.KernelIdeal

variable (m : (ℓ : Loc nD τ sig) → Buf (Elt Ideal) ℓ) (ρ : Dev nD → PrngReg)

/-- The first launch's first result, as the host operations find it, holds the plane sums of the launched tensor. -/
theorem exit0_sum (c : Dev nD) (b c' : Fin 64) :
    (Gen.V1 m ρ c main_v0_0 : FVec Ideal S64x64x1x1 .f32) (ix4 b c' 0 0)
      = Cert.BlendNorm.s1 (m ((c.tc : Thread nD τ).loc main_arg0)) b c' := by
  have h := region0_sum (Gen.V0 m ρ) c (m ((c.tc : Thread nD τ).loc main_arg0)) rfl b c'
  rw [← h]
  exact congrFun (Gen.hF0 m ρ c 1).symm (ix4 b c' 0 0)

/-- … and its second result the plane sums of squares. -/
theorem exit0_sumsq (c : Dev nD) (b c' : Fin 64) :
    (Gen.V1 m ρ c main_v0_1 : FVec Ideal S64x64x1x1 .f32) (ix4 b c' 0 0)
      = Cert.BlendNorm.s2 (m ((c.tc : Thread nD τ).loc main_arg0)) b c' := by
  have h := region0_sumsq (Gen.V0 m ρ) c (m ((c.tc : Thread nD τ).loc main_arg0)) rfl b c'
  rw [← h]
  exact congrFun (Gen.hF0 m ρ c 2).symm (ix4 b c' 0 0)

/-- The result array at (b, c, p, q) is the kernel's scalar formula of the launched arguments. -/
theorem result_apply (c : Dev nD) (b c' : Fin 64) (p q : Fin 112) :
    (Gen.V5 m ρ c main_v63 : FVec Ideal S64x64x112x112 .f32) (ix4 b c' p q)
      = Cert.BlendNorm.kOut (m ((c.tc : Thread nD τ).loc main_arg0)) (m ((c.tc : Thread nD τ).loc main_arg1))
          (m ((c.tc : Thread nD τ).loc main_arg2))
          (route (m ((c.tc : Thread nD τ).loc main_arg3)) (m ((c.tc : Thread nD τ).loc main_arg5)))
          (route (m ((c.tc : Thread nD τ).loc main_arg4)) (m ((c.tc : Thread nD τ).loc main_arg5))) b c' p q := by
  have h5 : (Gen.V5 m ρ c main_v63 : FVec Ideal S64x64x112x112 .f32) (ix4 b c' p q)
      = ((Gen.dat1 (F := Ideal) (Gen.V4 m ρ) c).arrAt 3 cfg1.N : FVec Ideal S64x64x112x112 .f32) (ix4 b c' p q) :=
    congrFun (Gen.hF1 m ρ c 3).symm (ix4 b c' p q)
  rw [h5, region1_affine (Gen.V4 m ρ) c _ _ _ (entry1_x m ρ c) (entry1_a m ρ c) (entry1_b m ρ c) b c' p q,
    coefA_apply (m ((c.tc : Thread nD τ).loc main_arg0)) _ _ _ _ (exit0_sum m ρ c) (exit0_sumsq m ρ c) b c',
    coefB_apply (m ((c.tc : Thread nD τ).loc main_arg0)) _ _ _ _ _ _ (exit0_sum m ρ c) (exit0_sumsq m ρ c) b c']
  rfl

/-- Every weakly fair execution of the kernel's program terminates with its result at the common array of the
    launched arguments, the arguments unchanged. -/
theorem run :
    θ_run (defs (F := Ideal)) (onTc (τ := τ) (main (F := Ideal))) ⟨m, fun _ => 0, ρ⟩ (fun r => ∀ c : Dev nD,
      r.2.mem ((c.tc : Thread nD τ).loc main_v63)
        = Cert.BlendNorm.outArr (m ((c.tc : Thread nD τ).loc main_arg0)) (m ((c.tc : Thread nD τ).loc main_arg1))
            (m ((c.tc : Thread nD τ).loc main_arg2))
            (route (m ((c.tc : Thread nD τ).loc main_arg3)) (m ((c.tc : Thread nD τ).loc main_arg5)))
            (route (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono
    (fun r h c => ⟨(h c).1.trans (Cert.BlendNorm.eq_outArr _ _ _ _ _ _ (result_apply m ρ c)), (h c).2⟩)
    (Gen.run_named (F := Ideal) m ρ)

end Cert.KernelIdeal.Blend

end
-- ==== Proof.RTerms.lean ====
/-
  The reference's @main as a function of arrays: the value each line computes, composed.

  The global branch: the channel mean `muG` (the sum over samples and plane, divided by 802816), the channel
  variance `varG` (the mean of squared deviations from that mean; the library function divides by the count minus
  a correction that is 0 here and guards the quotient by "the divisor is positive"), and the normalised, scaled
  and shifted tensor `xGlobal`.  The per-sample branch: the same over each sample's plane (`muS`, `varS`), the
  normalised tensor scaled and shifted by the sample's routed rows of the two group tables (`xGroups`).  The result
  is half of each.
-/
import proofs.«109601_j76192719831877_1_alg».proof.ReferenceIdeal
import proofs.«109601_j76192719831877_1_alg».proof.Proof.Gen.ReferenceIdeal
import Idealize.ShloMosaic.PureOps.Ideal

noncomputable section

namespace Cert.ReferenceIdeal.Blend

open Idealize.ShloMosaic Cert.ReferenceIdeal
open Cert.ReferenceIdeal.Facts₀

/-- The label modulo 32, in [0, 32) for every label (the truncated remainder, plus 32 where it is nonzero and
    its sign differs from the divisor's). -/
def labelMod (lab : IVec S64 32) : IVec S64 32 :=
  let w : IVec S_ 32 := select (cmpi .eq (id (constantI S_ 32 32#32)) (constantI S_ 32 0#32)) (constantI S_ 32 1#32) (id (constantI S_ 32 32#32))
  let r : IVec S64 32 := Host.remsi lab (broadcastInDim S64 ![] bcast_S_S64 w)
  select
    (andi (cmpi .ne (cmpi .slt r (broadcastInDim S64 ![] bcast_S_S64 (constantI S_ 32 0#32)))
                    (broadcastInDim S64 ![] bcast_S_S64 (cmpi .slt w (constantI S_ 32 0#32))))
          (cmpi .ne r (broadcastInDim S64 ![] bcast_S_S64 (constantI S_ 32 0#32))))
    (addi r (broadcastInDim S64 ![] bcast_S_S64 w)) r

/-- The row index the gather starts at, one per sample: a negative index counts from the end. -/
def rowOf (lab : IVec S64 32) : IVec S64x1 32 :=
  broadcastInDim S64x1 ![0] bcast_S64_S64x1_0
    (select (cmpi .slt (labelMod lab) (broadcastInDim S64 ![] bcast_S_S64 (constantI S_ 32 0#32)))
      (addi (labelMod lab) (broadcastInDim S64 ![] bcast_S_S64 (constantI S_ 32 32#32))) (labelMod lab))

/-- Each sample's row of a group table. -/
def route (tbl : FVec Ideal S32x64 .f32) (lab : IVec S64 32) : FVec Ideal S64x64 .f32 :=
  Host.gather gather_S32x64_S64x1_S64x64_1_0_n_n_0_1_164 tbl (rowOf lab)

section
variable (x : FVec Ideal S64x64x112x112 .f32) (γ β : FVec Ideal S64 .f32) (g bg : FVec Ideal S64x64 .f32)

/-- The channel mean. -/
def muG : FVec Ideal S64 .f32 :=
  Host.divf (Host.reduceAdd x (constant (F := Ideal) S_ .f32 0x00000000#32) reducesTo_S64x64x112x112_S64_d0_2_3 h_S_)
    (broadcastInDim S64 ![] bcast_S_S64 (constant (F := Ideal) S_ .f32 0x49440000#32))

/-- The count the variance divides by: 802816 minus the correction 0, as a scalar. -/
def cntG : FVec Ideal S_ .f32 :=
  subf (constant (F := Ideal) S_ .f32 0x49440000#32) (sitofp .f32 (constantI S_ 32 0#32))

/-- The squared deviations from the channel mean. -/
def devG : FVec Ideal S64x64x112x112 .f32 :=
  subf x (broadcastInDim S64x64x112x112 ![0, 1, 2, 3] bcast_S1x64x1x1_S64x64x112x112_0_1_2_3
    (Host.divf (broadcastInDim S1x64x1x1 ![1] bcast_S64_S1x64x1x1_1
        (Host.reduceAdd x (constant (F := Ideal) S_ .f32 0x00000000#32) reducesTo_S64x64x112x112_S64_d0_2_3 h_S_))
      (broadcastInDim S1x64x1x1 ![] bcast_S_S1x64x1x1 (constant (F := Ideal) S_ .f32 0x49440000#32))))

/-- The channel variance. -/
def varG : FVec Ideal S64 .f32 :=
  select (broadcastInDim S64 ![] bcast_S_S64 (cmpf .ogt cntG (constant (F := Ideal) S_ .f32 0x00000000#32)))
    (Host.divf (Host.reduceAdd (mulf (devG x) (devG x)) (constant (F := Ideal) S_ .f32 0x00000000#32) reducesTo_S64x64x112x112_S64_d0_2_3 h_S_)
      (broadcastInDim S64 ![] bcast_S_S64 cntG))
    (broadcastInDim S64 ![] bcast_S_S64 (id (constant (F := Ideal) S_ .f32 0x7FC00000#32)))

/-- The globally normalised tensor, scaled and shifted. -/
def xGlobal : FVec Ideal S64x64x112x112 .f32 :=
  addf (mulf
      (subf x (broadcastInDim S64x64x112x112 ![0, 1, 2, 3] bcast_S1x64x1x1_S64x64x112x112_0_1_2_3
        (broadcastInDim S1x64x1x1 ![1] bcast_S64_S1x64x1x1_1 (muG x))))
      (broadcastInDim S64x64x112x112 ![0, 1, 2, 3] bcast_S1x64x1x1_S64x64x112x112_0_1_2_3
        (broadcastInDim S1x64x1x1 ![1] bcast_S64_S1x64x1x1_1
          (mulf γ (Host.rsqrt (addf (varG x) (broadcastInDim S64 ![] bcast_S_S64 (constant (F := Ideal) S_ .f32 0x3727C5AC#32))))))))
    (broadcastInDim S64x64x112x112 ![0, 1, 2, 3] bcast_S1x64x1x1_S64x64x112x112_0_1_2_3
      (broadcastInDim S1x64x1x1 ![1] bcast_S64_S1x64x1x1_1 β))

/-- The per-sample mean, as a 64 x 64 x 1 x 1 table. -/
def muS : FVec Ideal S64x64x1x1 .f32 :=
  Host.divf (broadcastInDim S64x64x1x1 ![0, 1] bcast_S64x64_S64x64x1x1_0_1
      (Host.reduceAdd x (constant (F := Ideal) S_ .f32 0x00000000#32) reducesTo_S64x64x112x112_S64x64_d2_3 h_S_))
    (broadcastInDim S64x64x1x1 ![] bcast_S_S64x64x1x1 (constant (F := Ideal) S_ .f32 0x46440000#32))

/-- The count the per-sample variance divides by: 12544 minus the correction 0. -/
def cntS : FVec Ideal S_ .f32 :=
  subf (constant (F := Ideal) S_ .f32 0x46440000#32) (sitofp .f32 (constantI S_ 32 0#32))

/-- The deviations from the per-sample mean. -/
def devS : FVec Ideal S64x64x112x112 .f32 :=
  subf x (broadcastInDim S64x64x112x112 ![0, 1, 2, 3] bcast_S64x64x1x1_S64x64x112x112_0_1_2_3 (muS x))

/-- The per-sample variance. -/
def varS : FVec Ideal S64x64x1x1 .f32 :=
  select (broadcastInDim S64x64x1x1 ![] bcast_S_S64x64x1x1 (cmpf .ogt cntS (constant (F := Ideal) S_ .f32 0x00000000#32)))
    (Host.divf (broadcastInDim S64x64x1x1 ![0, 1] bcast_S64x64_S64x64x1x1_0_1
        (Host.reduceAdd (mulf (devS x) (devS x)) (constant (F := Ideal) S_ .f32 0x00000000#32) reducesTo_S64x64x112x112_S64x64_d2_3 h_S_))
      (broadcastInDim S64x64x1x1 ![] bcast_S_S64x64x1x1 cntS))
    (broadcastInDim S64x64x1x1 ![] bcast_S_S64x64x1x1 (id (constant (F := Ideal) S_ .f32 0x7FC00000#32)))

/-- The per-sample normalised tensor, scaled and shifted by the routed rows. -/
def xGroups : FVec Ideal S64x64x112x112 .f32 :=
  addf (mulf
      (mulf (devS x)
        (broadcastInDim S64x64x112x112 ![0, 1, 2, 3] bcast_S64x64x1x1_S64x64x112x112_0_1_2_3
          (Host.rsqrt (addf (varS x) (broadcastInDim S64x64x1x1 ![] bcast_S_S64x64x1x1 (constant (F := Ideal) S_ .f32 0x3727C5AC#32))))))
      (broadcastInDim S64x64x112x112 ![0, 1, 2, 3] bcast_S64x64x1x1_S64x64x112x112_0_1_2_3
        (broadcastInDim S64x64x1x1 ![0, 1] bcast_S64x64_S64x64x1x1_0_1 g)))
    (broadcastInDim S64x64x112x112 ![0, 1, 2, 3] bcast_S64x64x1x1_S64x64x112x112_0_1_2_3
      (broadcastInDim S64x64x1x1 ![0, 1] bcast_S64x64_S64x64x1x1_0_1 bg))

/-- The reference's result. -/
def out : FVec Ideal S64x64x112x112 .f32 :=
  addf (mulf (broadcastInDim S64x64x112x112 ![] bcast_S_S64x64x112x112 (constant (F := Ideal) S_ .f32 0x3F000000#32)) (xGlobal x γ β))
    (mulf (broadcastInDim S64x64x112x112 ![] bcast_S_S64x64x112x112 (constant (F := Ideal) S_ .f32 0x3F000000#32)) (xGroups x g bg))

end

end Cert.ReferenceIdeal.Blend

end
-- ==== Proof.RRun.lean ====
/-
  The reference's run: @main is a straight line of host operations (the library functions it calls unfolded at
  their calls), so every weakly fair execution terminates with each buffer at the operations' composed value of the
  launch contents; the result buffer's value is the function `out` of the arguments, and no operation writes an
  argument.
-/
import proofs.«109601_j76192719831877_1_alg».proof.Proof.RTerms
import Idealize.ShloMosaic.Lib.StableHlo.Run
import Idealize.ShloMosaic.Lib.ValueIdx

noncomputable section

namespace Cert.ReferenceIdeal.Blend

open Idealize.ShloMosaic Idealize.ShloMosaic.TcCoe Idealize.ShloMosaic.ValueIdx Idealize.SL.Sem
open Idealize.ShloMosaic.StableHlo
open Cert.ReferenceIdeal Cert.ReferenceIdeal.Facts₀

namespace Line

variable {F : FTy → Type} [FloatOps F]
/-- @main's one hundred and thirty-three operations in order, each call's operations at the call over the call's record:
    the channel mean (five and the correction constant); the variance over samples and plane (nineteen, then the select
    of the guarded quotient against the not-a-number constant: the constant's conversion, its broadcast, the select); the
    global branch's normalisation, scale and shift; the per-sample mean; the variance over each sample's plane (twenty
    and the same three); the per-sample normalisation; the labels' remainder by thirty-two (four, the select of the
    divisor, sixteen); the two row indices, gathers and broadcasts; the scale and shift by the routed rows; the halves
    and their sum. -/
abbrev ops : List (HloOp τ sig (Elt F)) :=
  [ nullary main_cst (constant S_ .f32 0x00000000#32),
    binary main_arg0 main_cst main_v0 (fun x v => Host.reduceAdd x v reducesTo_S64x64x112x112_S64_d0_2_3 h_S_),
    nullary main_cst_0 (constant S_ .f32 0x49440000#32),
    unary main_cst_0 main_v1 (broadcastInDim S64 ![] bcast_S_S64),
    binary main_v0 main_v1 main_v2 Host.divf,
    nullary main_c (constantI S_ 32 0#32),
    TRef.nullary main_call0.cst (constant S_ .f32 0x00000000#32),
    TRef.binary (.of main_arg0) main_call0.cst main_call0.v0 (fun x v => Host.reduceAdd x v reducesTo_S64x64x112x112_S64_d0_2_3 h_S_),
    TRef.unary main_call0.v0 main_call0.v1 (broadcastInDim S1x64x1x1 ![1] bcast_S64_S1x64x1x1_1),
    TRef.nullary main_call0.cst_0 (constant S_ .f32 0x49440000#32),
    TRef.unary main_call0.cst_0 main_call0.v2 (broadcastInDim S1x64x1x1 ![] bcast_S_S1x64x1x1),
    TRef.binary main_call0.v1 main_call0.v2 main_call0.v3 Host.divf,
    TRef.unary main_call0.v3 main_call0.v4 (broadcastInDim S64x64x112x112 ![0, 1, 2, 3] bcast_S1x64x1x1_S64x64x112x112_0_1_2_3),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x49440000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S64x64x112x112_S64_d0_2_3 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    nullary main_cst_1 (constant S_ .f32 0x3727C5AC#32),
    unary main_cst_1 main_v4 (broadcastInDim S64 ![] bcast_S_S64),
    binary main_v3 main_v4 main_v5 addf,
    unary main_v5 main_v6 Host.rsqrt,
    unary main_v2 main_v7 (broadcastInDim S1x64x1x1 ![1] bcast_S64_S1x64x1x1_1),
    unary main_v7 main_v8 (broadcastInDim S64x64x112x112 ![0, 1, 2, 3] bcast_S1x64x1x1_S64x64x112x112_0_1_2_3),
    binary main_arg0 main_v8 main_v9 subf,
    binary main_arg1 main_v6 main_v10 mulf,
    unary main_v10 main_v11 (broadcastInDim S1x64x1x1 ![1] bcast_S64_S1x64x1x1_1),
    unary main_v11 main_v12 (broadcastInDim S64x64x112x112 ![0, 1, 2, 3] bcast_S1x64x1x1_S64x64x112x112_0_1_2_3),
    binary main_v9 main_v12 main_v13 mulf,
    unary main_arg2 main_v14 (broadcastInDim S1x64x1x1 ![1] bcast_S64_S1x64x1x1_1),
    unary main_v14 main_v15 (broadcastInDim S64x64x112x112 ![0, 1, 2, 3] bcast_S1x64x1x1_S64x64x112x112_0_1_2_3),
    binary main_v13 main_v15 main_v16 addf,
    nullary main_cst_2 (constant S_ .f32 0x00000000#32),
    binary main_arg0 main_cst_2 main_v17 (fun x v => Host.reduceAdd x v reducesTo_S64x64x112x112_S64x64_d2_3 h_S_),
    unary main_v17 main_v18 (broadcastInDim S64x64x1x1 ![0, 1] bcast_S64x64_S64x64x1x1_0_1),
    nullary main_cst_3 (constant S_ .f32 0x46440000#32),
    unary main_cst_3 main_v19 (broadcastInDim S64x64x1x1 ![] bcast_S_S64x64x1x1),
    binary main_v18 main_v19 main_v20 Host.divf,
    nullary main_c_4 (constantI S_ 32 0#32),
    TRef.nullary main_call1.cst (constant S_ .f32 0x00000000#32),
    TRef.binary (.of main_arg0) main_call1.cst main_call1.v0 (fun x v => Host.reduceAdd x v reducesTo_S64x64x112x112_S64x64_d2_3 h_S_),
    TRef.unary main_call1.v0 main_call1.v1 (broadcastInDim S64x64x1x1 ![0, 1] bcast_S64x64_S64x64x1x1_0_1),
    TRef.nullary main_call1.cst_0 (constant S_ .f32 0x46440000#32),
    TRef.unary main_call1.cst_0 main_call1.v2 (broadcastInDim S64x64x1x1 ![] bcast_S_S64x64x1x1),
    TRef.binary main_call1.v1 main_call1.v2 main_call1.v3 Host.divf,
    TRef.unary main_call1.v3 main_call1.v4 (broadcastInDim S64x64x112x112 ![0, 1, 2, 3] bcast_S64x64x1x1_S64x64x112x112_0_1_2_3),
    TRef.binary (.of main_arg0) main_call1.v4 main_call1.v5 subf,
    TRef.binary main_call1.v5 main_call1.v5 main_call1.v6 mulf,
    TRef.unary (.of main_c_4) main_call1.v7 (sitofp .f32),
    TRef.nullary main_call1.cst_1 (constant S_ .f32 0x46440000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S64x64x112x112_S64x64_d2_3 h_S_),
    TRef.unary main_call1.v9 main_call1.v10 (broadcastInDim S64x64x1x1 ![0, 1] bcast_S64x64_S64x64x1x1_0_1),
    TRef.unary main_call1.v8 main_call1.v11 (broadcastInDim S64x64x1x1 ![] bcast_S_S64x64x1x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S64x64x1x1 ![] bcast_S_S64x64x1x1),
    TRef.ternary main_call1.v13 main_call1.v12 main_call1.call0.v1 main_call1.call0.v2 (fun p a b => select (broadcastInDim S64x64x1x1 ![] bcast_S_S64x64x1x1 p) a b),
    unary main_v20 main_v22 (broadcastInDim S64x64x112x112 ![0, 1, 2, 3] bcast_S64x64x1x1_S64x64x112x112_0_1_2_3),
    binary main_arg0 main_v22 main_v23 subf,
    nullary main_cst_5 (constant S_ .f32 0x3727C5AC#32),
    unary main_cst_5 main_v24 (broadcastInDim S64x64x1x1 ![] bcast_S_S64x64x1x1),
    binary main_v21 main_v24 main_v25 addf,
    unary main_v25 main_v26 Host.rsqrt,
    unary main_v26 main_v27 (broadcastInDim S64x64x112x112 ![0, 1, 2, 3] bcast_S64x64x1x1_S64x64x112x112_0_1_2_3),
    binary main_v23 main_v27 main_v28 mulf,
    nullary main_c_6 (constantI S_ 32 32#32),
    TRef.unary (.of main_c_6) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S64 ![] bcast_S_S64),
    TRef.binary (.of main_arg5) main_call2.v3 main_call2.v4 Host.remsi,
    TRef.nullary main_call2.c_1 (constantI S_ 32 0#32),
    TRef.unary main_call2.c_1 main_call2.v5 (broadcastInDim S64 ![] bcast_S_S64),
    TRef.binary main_call2.v4 main_call2.v5 main_call2.v6 (cmpi .ne),
    TRef.nullary main_call2.c_2 (constantI S_ 32 0#32),
    TRef.unary main_call2.c_2 main_call2.v7 (broadcastInDim S64 ![] bcast_S_S64),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S64 ![] bcast_S_S64),
    TRef.binary main_call2.v8 main_call2.v10 main_call2.v11 (cmpi .ne),
    TRef.binary main_call2.v11 main_call2.v6 main_call2.v12 andi,
    TRef.unary main_call2.call0.v0 main_call2.v13 (broadcastInDim S64 ![] bcast_S_S64),
    TRef.binary main_call2.v4 main_call2.v13 main_call2.v14 addi,
    TRef.ternary main_call2.v12 main_call2.v14 main_call2.v4 main_call2.v15 select,
    nullary main_c_7 (constantI S_ 32 0#32),
    unary main_c_7 main_v30 (broadcastInDim S64 ![] bcast_S_S64),
    binary main_v29 main_v30 main_v31 (cmpi .slt),
    nullary main_c_8 (constantI S_ 32 32#32),
    unary main_c_8 main_v32 (broadcastInDim S64 ![] bcast_S_S64),
    binary main_v29 main_v32 main_v33 addi,
    ternary main_v31 main_v33 main_v29 main_v34 select,
    unary main_v34 main_v35 (broadcastInDim S64x1 ![0] bcast_S64_S64x1_0),
    binary main_arg3 main_v35 main_v36 (fun x i => Host.gather gather_S32x64_S64x1_S64x64_1_0_n_n_0_1_164 x i),
    unary main_v36 main_v37 (broadcastInDim S64x64x1x1 ![0, 1] bcast_S64x64_S64x64x1x1_0_1),
    nullary main_c_9 (constantI S_ 32 0#32),
    unary main_c_9 main_v38 (broadcastInDim S64 ![] bcast_S_S64),
    binary main_v29 main_v38 main_v39 (cmpi .slt),
    nullary main_c_10 (constantI S_ 32 32#32),
    unary main_c_10 main_v40 (broadcastInDim S64 ![] bcast_S_S64),
    binary main_v29 main_v40 main_v41 addi,
    ternary main_v39 main_v41 main_v29 main_v42 select,
    unary main_v42 main_v43 (broadcastInDim S64x1 ![0] bcast_S64_S64x1_0),
    binary main_arg4 main_v43 main_v44 (fun x i => Host.gather gather_S32x64_S64x1_S64x64_1_0_n_n_0_1_164 x i),
    unary main_v44 main_v45 (broadcastInDim S64x64x1x1 ![0, 1] bcast_S64x64_S64x64x1x1_0_1),
    unary main_v37 main_v46 (broadcastInDim S64x64x112x112 ![0, 1, 2, 3] bcast_S64x64x1x1_S64x64x112x112_0_1_2_3),
    binary main_v28 main_v46 main_v47 mulf,
    unary main_v45 main_v48 (broadcastInDim S64x64x112x112 ![0, 1, 2, 3] bcast_S64x64x1x1_S64x64x112x112_0_1_2_3),
    binary main_v47 main_v48 main_v49 addf,
    nullary main_cst_11 (constant S_ .f32 0x3F000000#32),
    unary main_cst_11 main_v50 (broadcastInDim S64x64x112x112 ![] bcast_S_S64x64x112x112),
    binary main_v50 main_v16 main_v51 mulf,
    nullary main_cst_12 (constant S_ .f32 0x3F000000#32),
    unary main_cst_12 main_v52 (broadcastInDim S64x64x112x112 ![] bcast_S_S64x64x112x112),
    binary main_v52 main_v49 main_v53 mulf,
    binary main_v51 main_v53 main_v54 addf ]

set_option maxRecDepth 8192 in
set_option maxHeartbeats 1000000 in
/-- @main is that straight line: the functions' definitions unfolded at their calls and the records at their fields,
    both sides are one chain of steps once sequencing is reassociated. -/
theorem main_eq (c : Dev nD) : main (F := F) c = seq ops := by
  simp only [main, main_part0, main_part1, fn_var.body, fn_where.body, fn_var_0.body, fn_where_1.body, fn_remainder.body,
    fn_where_2.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., nullary_bufs_sub .., unary_bufs_sub ..,
    binary_bufs_sub .., unary_bufs_sub .., unary_bufs_sub .., unary_bufs_sub .., binary_bufs_sub .., binary_bufs_sub ..,
    unary_bufs_sub .., unary_bufs_sub .., binary_bufs_sub .., unary_bufs_sub .., unary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    binary_bufs_sub ..⟩

/-- From any memory with zero counters every weakly fair execution of @main terminates with each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation writes an argument. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

set_option maxRecDepth 8192 in
set_option maxHeartbeats 2000000 in
/-- The fold at the result buffer is `out` of the arguments, the two tables routed by the labels: each operation's
    result read at its own buffer and passed over at every other, what is left is the composed term, which is
    `out`'s by unfolding. -/
theorem out_eq (V : Valuation τ sig (Elt Ideal)) :
    after (ops (F := Ideal)) V (main_v54 : DevRef τ sig)
      = out (V (main_arg0 : DevRef τ sig)) (V (main_arg1 : DevRef τ sig)) (V (main_arg2 : DevRef τ sig))
          (route (V (main_arg3 : DevRef τ sig)) (V (main_arg5 : DevRef τ sig)))
          (route (V (main_arg4 : DevRef τ sig)) (V (main_arg5 : DevRef τ sig))) := by
  after_results_simp
  rfl

end Line

/-- Every weakly fair execution of the reference terminates, the result at `out` of the arguments (the two group
    tables routed by the labels), the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54)
        = out (m ((c.tc : Thread nD τ).loc main_arg0)) (m ((c.tc : Thread nD τ).loc main_arg1)) (m ((c.tc : Thread nD τ).loc main_arg2))
            (route (m ((c.tc : Thread nD τ).loc main_arg3)) (m ((c.tc : Thread nD τ).loc main_arg5)))
            (route (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v54).trans (Line.out_eq _),
      (h c main_arg0).trans (Line.arg0_eq _), (h c main_arg1).trans (Line.arg1_eq _), (h c main_arg2).trans (Line.arg2_eq _),
      (h c main_arg3).trans (Line.arg3_eq _), (h c main_arg4).trans (Line.arg4_eq _), (h c main_arg5).trans (Line.arg5_eq _)⟩)
    (Line.run_main m ρ)

end Cert.ReferenceIdeal.Blend

end
-- ==== Proof.Bridge.lean ====
/-
  The two scalar formulas agree on finite inputs.

  Every quantity is the coercion of a real number: the constants are reals, division by a nonzero real is the product
  with its reciprocal, a finite sum of reals is real.  For a finite family f of N reals with mean m = (sum f) / N the
  mean of the squared deviations (sum (f - m)^2) / N equals (sum f^2) / N - m^2, a nonnegative real, so after the
  positive offset both arguments of the reciprocal square root are one positive real.  What remains is an identity of
  real polynomials.
-/
import proofs.«109601_j76192719831877_1_alg».proof.Proof.Spec
import Mathlib.Algebra.BigOperators.Ring.Finset
import Mathlib.Algebra.Order.BigOperators.Ring.Finset
import Mathlib.Data.Fintype.BigOperators
import Mathlib.Tactic.Ring
import Mathlib.Tactic.FieldSimp
import Mathlib.Tactic.NormNum
import Mathlib.Tactic.Positivity

noncomputable section

namespace Cert.BlendNorm

open Idealize.ShloMosaic Idealize.ShloMosaic.ValueIdx

/-! ### The constants -/

theorem cHW_eq : cHW = ((12544 : ℝ) : EReal) := by
  simp [Ideal.ofBits, Ideal.ieee, -EReal.coe_mul]; norm_num

theorem cN_eq : cN = ((802816 : ℝ) : EReal) := by
  simp [Ideal.ofBits, Ideal.ieee, -EReal.coe_mul]; norm_num

theorem cHalf_eq : cHalf = ((1 / 2 : ℝ) : EReal) := by
  simp [Ideal.ofBits, Ideal.ieee, -EReal.coe_mul]; norm_num

theorem cEps_pos : ∃ e : ℝ, 0 < e ∧ cEps = (e : EReal) := by
  refine ⟨(10995116 : ℝ) * (2 : ℝ) ^ (-40 : ℤ), by positivity, ?_⟩
  simp [Ideal.ofBits, Ideal.ieee, -EReal.coe_mul]

/-! ### Finite sums of reals in the extended reals -/

/-- The coercion of a finite sum of reals is the sum of the coercions. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mean of the squared deviations from the mean is the mean of the squares minus the squared mean. -/
theorem var_identity {ι : Type*} [Fintype ι] (f : ι → ℝ) (N : ℝ) (hcard : (Fintype.card ι : ℝ) = N) (hN : N ≠ 0) :
    (∑ i, (f i - (∑ j, f j) * (1 / N)) * (f i - (∑ j, f j) * (1 / N))) * (1 / N)
      = (∑ i, f i * f i) * (1 / N) - (∑ j, f j) * (1 / N) * ((∑ j, f j) * (1 / N)) := by
  set S := ∑ j, f j with hS
  have h : ∀ i, (f i - S * (1 / N)) * (f i - S * (1 / N))
      = f i * f i - 2 * (S * (1 / N)) * f i + S * (1 / N) * (S * (1 / N)) := fun i => by ring
  simp_rw [h]
  rw [Finset.sum_add_distrib, Finset.sum_sub_distrib, ← Finset.mul_sum, Finset.sum_const, Finset.card_univ,
    nsmul_eq_mul, hcard, ← hS]
  field_simp
  ring

/-- Reciprocal square root of a positive real. -/
theorem rsqrt_pos {r : ℝ} (hr : 0 < r) : Ideal.rsqrt ((r : ℝ) : EReal) = (((Real.sqrt r)⁻¹ : ℝ) : EReal) := by
  rw [Ideal.rsqrt_coe, if_neg (not_lt.2 hr.le), if_neg hr.ne']

/-- The statistics of a finite family of N reals: its mean is real, and the two forms of the reciprocal standard
    deviation are one real. -/
theorem stats_core {ι : Type*} [Fintype ι] (f : ι → ℝ) (N e : ℝ) (hcard : (Fintype.card ι : ℝ) = N) (hN : 0 < N)
    (he : 0 < e) :
    ∃ μ inv : ℝ,
      Ideal.div (∑ i, ((f i : ℝ) : EReal)) (N : EReal) = (μ : EReal) ∧
      Ideal.rsqrt (Ideal.div (∑ i, ((f i : ℝ) : EReal) * ((f i : ℝ) : EReal)) (N : EReal)
          - (μ : EReal) * (μ : EReal) + (e : EReal)) = (inv : EReal) ∧
      Ideal.rsqrt (Ideal.div (∑ i, (((f i : ℝ) : EReal) - (μ : EReal)) * (((f i : ℝ) : EReal) - (μ : EReal)))
          (N : EReal) + (e : EReal)) = (inv : EReal) := by
  have hN0 : N ≠ 0 := hN.ne'
  set μ : ℝ := (∑ j, f j) * (1 / N) with hμ
  set V : ℝ := (∑ i, (f i - μ) * (f i - μ)) * (1 / N) with hV
  have hV0 : 0 ≤ V := by
    apply mul_nonneg (Finset.sum_nonneg fun i _ => mul_self_nonneg _)
    positivity
  have hVe : 0 < V + e := by linarith
  have hid : V = (∑ i, f i * f i) * (1 / N) - μ * μ := var_identity f N hcard hN0
  refine ⟨μ, (Real.sqrt (V + e))⁻¹, ?_, ?_, ?_⟩
  · rw [Ideal.div_coe hN0, coe_sum, ← EReal.coe_mul]
  · simp only [← EReal.coe_mul]
    rw [Ideal.div_coe hN0, coe_sum, ← EReal.coe_mul, ← EReal.coe_sub, ← EReal.coe_add, ← hid, rsqrt_pos hVe]
  · simp only [← EReal.coe_sub, ← EReal.coe_mul]
    rw [Ideal.div_coe hN0, coe_sum, ← EReal.coe_mul, ← EReal.coe_add, ← hV, rsqrt_pos hVe]

/-! ### Nested sums as sums over a product -/

theorem sum2 {M : Type*} [AddCommMonoid M] (G : Fin 112 → Fin 112 → M) :
    ∑ p, ∑ q, G p q = ∑ t : Fin 112 × Fin 112, G t.1 t.2 := by
  rw [Fintype.sum_prod_type]

theorem sum3 {M : Type*} [AddCommMonoid M] (G : Fin 64 → Fin 112 → Fin 112 → M) :
    ∑ b, ∑ p, ∑ q, G b p q = ∑ t : Fin 64 × Fin 112 × Fin 112, G t.1 t.2.1 t.2.2 := by
  rw [Fintype.sum_prod_type]
  refine Finset.sum_congr rfl fun b _ => ?_
  rw [Fintype.sum_prod_type]

theorem card2 : (Fintype.card (Fin 112 × Fin 112) : ℝ) = 12544 := by
  simp only [Fintype.card_prod, Fintype.card_fin]; norm_num

theorem card3 : (Fintype.card (Fin 64 × Fin 112 × Fin 112) : ℝ) = 802816 := by
  simp only [Fintype.card_prod, Fintype.card_fin]; norm_num

/-! ### The statistics of a plane and of a channel -/

section
variable (x : X4.Idx → EReal) (xr : X4.Idx → ℝ) (hxr : ∀ i, x i = ((xr i : ℝ) : EReal))
include hxr

theorem plane_stats (b c : Fin 64) :
    ∃ μ inv : ℝ, kMuS x b c = (μ : EReal) ∧ kInvS x b c = (inv : EReal) ∧ rInvS x b c = (inv : EReal) := by
  obtain ⟨e, he, hE⟩ := cEps_pos
  obtain ⟨μ, inv, h1, h2, h3⟩ :=
    stats_core (fun t : Fin 112 × Fin 112 => xr (ix4 b c t.1 t.2)) 12544 e card2 (by norm_num) he
  have hμ : kMuS x b c = (μ : EReal) := by
    rw [← h1, kMuS, s1, cHW_eq]
    simp only [hxr]
    rw [sum2 (fun p q => ((xr (ix4 b c p q) : ℝ) : EReal))]
  refine ⟨μ, inv, hμ, ?_, ?_⟩
  · rw [← h2, kInvS, hμ, s2, cHW_eq, hE]
    simp only [hxr]
    rw [sum2 (fun p q => ((xr (ix4 b c p q) : ℝ) : EReal) * ((xr (ix4 b c p q) : ℝ) : EReal))]
  · rw [← h3, rInvS, rVarS, hμ, cHW_eq, hE]
    simp only [hxr]
    rw [sum2 (fun p q => (((xr (ix4 b c p q) : ℝ) : EReal) - (μ : EReal))
      * (((xr (ix4 b c p q) : ℝ) : EReal) - (μ : EReal)))]

theorem chan_stats (c : Fin 64) :
    ∃ μ inv : ℝ, kMuG x c = (μ : EReal) ∧ rMuG x c = (μ : EReal) ∧ kInvG x c = (inv : EReal)
      ∧ rInvG x c = (inv : EReal) := by
  obtain ⟨e, he, hE⟩ := cEps_pos
  obtain ⟨μ, inv, h1, h2, h3⟩ :=
    stats_core (fun t : Fin 64 × Fin 112 × Fin 112 => xr (ix4 t.1 c t.2.1 t.2.2)) 802816 e card3 (by norm_num) he
  have hμr : rMuG x c = (μ : EReal) := by
    rw [← h1, rMuG, cN_eq]
    simp only [hxr]
    rw [sum3 (fun b p q => ((xr (ix4 b c p q) : ℝ) : EReal))]
  have hμ : kMuG x c = (μ : EReal) := hμr
  refine ⟨μ, inv, hμ, hμr, ?_, ?_⟩
  · rw [← h2, kInvG, hμ, cN_eq, hE]
    simp only [s2, hxr]
    rw [sum3 (fun b p q => ((xr (ix4 b c p q) : ℝ) : EReal) * ((xr (ix4 b c p q) : ℝ) : EReal))]
  · rw [← h3, rInvG, rVarG, hμr, cN_eq, hE]
    simp only [hxr]
    rw [sum3 (fun b p q => (((xr (ix4 b c p q) : ℝ) : EReal) - (μ : EReal))
      * (((xr (ix4 b c p q) : ℝ) : EReal) - (μ : EReal)))]

end

/-- With every input a real number, the kernel's and the reference's results are the same extended real. -/
theorem kOut_eq_rOut (x : X4.Idx → EReal) (γ β : V1.Idx → EReal) (g bg : P2.Idx → EReal)
    (hx : ∀ i, ∃ r : ℝ, x i = (r : EReal)) (hγ : ∀ i, ∃ r : ℝ, γ i = (r : EReal)) (hβ : ∀ i, ∃ r : ℝ, β i = (r : EReal))
    (hg : ∀ i, ∃ r : ℝ, g i = (r : EReal)) (hbg : ∀ i, ∃ r : ℝ, bg i = (r : EReal))
    (b c : Fin 64) (p q : Fin 112) :
    kOut x γ β g bg b c p q = rOut x γ β g bg b c p q := by
  choose xr hxr using hx
  obtain ⟨μs, ιs, h1, h2, h3⟩ := plane_stats x xr hxr b c
  obtain ⟨μg, ιg, h4, h5, h6, h7⟩ := chan_stats x xr hxr c
  obtain ⟨γr, hγr⟩ := hγ (ix1 c)
  obtain ⟨βr, hβr⟩ := hβ (ix1 c)
  obtain ⟨gr, hgr⟩ := hg (ix2 b c)
  obtain ⟨bgr, hbgr⟩ := hbg (ix2 b c)
  rw [kOut, rOut, kA, kB, h1, h2, h3, h4, h5, h6, h7, hγr, hβr, hgr, hbgr, hxr, cHalf_eq]
  simp only [← EReal.coe_mul, ← EReal.coe_add, ← EReal.coe_sub]
  congr 1
  ring

end Cert.BlendNorm

end
-- ==== Proof.RReadG.lean ====
/-
  The reference's global branch read at an index.

  At (b, c, p, q) the globally normalised tensor is (x - mean) * (gamma * rsqrt (variance + eps)) + beta with the
  channel's mean and variance: each broadcast [64] -> [1, 64, 1, 1] -> [64, 64, 112, 112] reads channel c; the sums
  over axes 0, 2, 3 are the initial value 0 plus the triple sum; the variance's divisor is 802816 - 0 = 802816 and
  its guard "802816 > 0" is true, so the guarded quotient is the quotient.
-/
import proofs.«109601_j76192719831877_1_alg».proof.Proof.RTerms
import proofs.«109601_j76192719831877_1_alg».proof.Proof.Spec
import proofs.«109601_j76192719831877_1_alg».proof.Proof.LibPlaneSums
import proofs.«109601_j76192719831877_1_alg».proof.Proof.Bridge
import Idealize.ShloMosaic.Lib.Pipeline.Value
import Idealize.ShloMosaic.Lib.IdealHost

noncomputable section

namespace Cert.ReferenceIdeal.Blend

open Idealize.ShloMosaic Idealize.ShloMosaic.TcCoe Idealize.ShloMosaic.ValueIdx Idealize.SL.Sem
open Cert.ReferenceIdeal
open Cert.ReferenceIdeal.Facts₀
open Cert.BlendNorm

/-! ### Three readings used throughout -/

/-- The sum over axes 0, 2, 3 from the initial value zero, read at channel c: the triple sum over samples and plane. -/
theorem sumG_apply (y : FVec Ideal S64x64x112x112 .f32) (c : Fin 64) :
    Host.reduceAdd y (constant (F := Ideal) S_ .f32 0x00000000#32) reducesTo_S64x64x112x112_S64_d0_2_3 h_S_ (ix1 c)
      = ∑ b : Fin 64, ∑ p : Fin 112, ∑ q : Fin 112, y (ix4 b c p q) := by
  rw [hostReduceAdd_apply, Cert.LibPlaneSums.hostReduceAdd_batchPlane, constant_apply, Ideal.ofBits_zero_f32, zero_add]

/-- A channel vector broadcast to [1, 64, 1, 1] along axis 1 and then to [64, 64, 112, 112] reads channel c at
    (b, c, p, q): the middle index is (0, c, 0, 0). -/
theorem bcastChan_apply {α : Type} (v : S64.Idx → α) (b c : Fin 64) (p q : Fin 112) :
    broadcastInDim S64x64x112x112 ![0, 1, 2, 3] bcast_S1x64x1x1_S64x64x112x112_0_1_2_3
      (broadcastInDim S1x64x1x1 ![1] bcast_S64_S1x64x1x1_1 v) (ix4 b c p q) = v (ix1 c) := by
  rw [broadcastInDim_apply _ _ _ _ (ix4 (0 : Fin 1) c (0 : Fin 1) (0 : Fin 1))
      (fun a => match a with | ⟨0, _⟩ => rfl | ⟨1, _⟩ => rfl | ⟨2, _⟩ => rfl | ⟨3, _⟩ => rfl),
    broadcastInDim_apply _ _ _ _ (ix1 c) (fun a => match a with | ⟨0, _⟩ => rfl)]

/-- The reciprocal square root of an array at an index is the extended reals' reciprocal square root of the element. -/
theorem hostRsqrt_apply {s : Shape} {φ : FTy} (a : FVec Ideal s φ) (i : s.Idx) :
    Host.rsqrt a i = Ideal.rsqrt (a i) := rfl

/-! ### The statistics of a channel -/

section
variable (x : FVec Ideal S64x64x112x112 .f32)

/-- The channel mean at c: the triple sum divided by 802816. -/
theorem muG_apply (c : Fin 64) : muG x (ix1 c) = rMuG x c := by
  unfold muG rMuG
  rw [hostDivf_apply, sumG_apply, broadcastInDim_scalar_apply, constant_apply]

/-- The variance's divisor is 802816: the integer 0 converts to the real 0, and 802816 - 0 = 802816. -/
theorem cntG_apply : cntG ix0 = cN := by
  unfold cntG
  rw [subf_apply, constant_apply, sitofp_apply]
  have h : (FloatOps.sitofp (F := Ideal) .f32 (constantI S_ 32 0#32 ix0) : EReal) = 0 := by
    show (((0#32 : BitVec 32).toInt : ℝ) : EReal) = 0
    simp
  rw [h, sub_zero]

/-- The divisor is positive, 802816 > 0: the guard's bit is 1. -/
theorem guardG : cmpf .ogt cntG (constant (F := Ideal) S_ .f32 0x00000000#32) ix0 = 1#1 := by
  rw [cmpf_apply, cntG_apply, constant_apply, Ideal.ofBits_zero_f32, Ideal.cmpf_def, cN_eq]
  unfold Ideal.cmp
  simp

/-- The deviation from the channel mean at (b, c, p, q): the mean is formed again in the shape [1, 64, 1, 1], the sum
    and the divisor both broadcast there, and read at (0, c, 0, 0). -/
theorem devG_apply (b c : Fin 64) (p q : Fin 112) : devG x (ix4 b c p q) = x (ix4 b c p q) - rMuG x c := by
  unfold devG rMuG
  rw [subf_apply,
    broadcastInDim_apply _ _ _ _ (ix4 (0 : Fin 1) c (0 : Fin 1) (0 : Fin 1))
      (fun a => match a with | ⟨0, _⟩ => rfl | ⟨1, _⟩ => rfl | ⟨2, _⟩ => rfl | ⟨3, _⟩ => rfl),
    hostDivf_apply,
    broadcastInDim_apply _ _ _ _ (ix1 c) (fun a => match a with | ⟨0, _⟩ => rfl),
    sumG_apply, broadcastInDim_scalar_apply, constant_apply]

/-- The channel variance at c: the guard is true, so it is the triple sum of the squared deviations divided by
    802816. -/
theorem varG_apply (c : Fin 64) : varG x (ix1 c) = rVarG x c := by
  unfold varG rVarG
  rw [select_apply, broadcastInDim_scalar_apply, guardG, select_one, hostDivf_apply, sumG_apply,
    broadcastInDim_scalar_apply, cntG_apply]
  simp only [mulf_apply, devG_apply]

end

/-! ### The normalised, scaled and shifted tensor -/

/-- The global branch at (b, c, p, q). -/
theorem xGlobal_apply (x : FVec Ideal S64x64x112x112 .f32) (γ β : FVec Ideal S64 .f32) (b c : Fin 64) (p q : Fin 112) :
    xGlobal x γ β (ix4 b c p q) = (x (ix4 b c p q) - rMuG x c) * (γ (ix1 c) * rInvG x c) + β (ix1 c) := by
  unfold xGlobal rInvG
  rw [addf_apply, mulf_apply, subf_apply, bcastChan_apply, bcastChan_apply, bcastChan_apply, muG_apply, mulf_apply,
    hostRsqrt_apply, addf_apply, varG_apply, broadcastInDim_scalar_apply, constant_apply]

end Cert.ReferenceIdeal.Blend

end
-- ==== Proof.RReadS.lean ====
/-
  The reference's per-sample branch read at an index.

  At (b, c, p, q) the per-sample normalised tensor is (x - mean) * rsqrt (variance + eps) * g + bg with the plane's
  mean and variance and the sample's routed rows g, bg: each broadcast [64, 64] -> [64, 64, 1, 1] -> [64, 64, 112, 112]
  reads (b, c); the sums over axes 2, 3 are the initial value 0 plus the double sum; the variance's divisor is
  12544 - 0 = 12544 and its guard "12544 > 0" is true.
-/
import proofs.«109601_j76192719831877_1_alg».proof.Proof.RTerms
import proofs.«109601_j76192719831877_1_alg».proof.Proof.Spec
import proofs.«109601_j76192719831877_1_alg».proof.Proof.LibPlaneSums
import proofs.«109601_j76192719831877_1_alg».proof.Proof.Bridge
import Idealize.ShloMosaic.Lib.Pipeline.Value
import Idealize.ShloMosaic.Lib.IdealHost

noncomputable section

namespace Cert.ReferenceIdeal.Blend

open Idealize.ShloMosaic Idealize.ShloMosaic.TcCoe Idealize.ShloMosaic.ValueIdx Idealize.SL.Sem
open Cert.ReferenceIdeal Cert.ReferenceIdeal.Facts₀
open Cert.BlendNorm

/-- A [64, 64, 1, 1] table broadcast to the tensor's shape reads (b, c, 0, 0) at (b, c, p, q). -/
theorem bcastPlane_apply {α : Type} (y : S64x64x1x1.Idx → α) (b c : Fin 64) (p q : Fin 112) :
    broadcastInDim S64x64x112x112 ![0, 1, 2, 3] bcast_S64x64x1x1_S64x64x112x112_0_1_2_3 y (ix4 b c p q)
      = y (ix4 b c 0 0) :=
  broadcastInDim_apply _ _ y _ (ix4 b c 0 0) (by intro a; fin_cases a <;> rfl)

/-- A [64, 64] table broadcast to [64, 64, 1, 1] reads (b, c) at (b, c, 0, 0). -/
theorem bcastTable_apply {α : Type} (y : S64x64.Idx → α) (b c : Fin 64) :
    broadcastInDim S64x64x1x1 ![0, 1] bcast_S64x64_S64x64x1x1_0_1 y (ix4 b c 0 0) = y (ix2 b c) :=
  broadcastInDim_apply _ _ y _ (ix2 b c) (by intro a; fin_cases a <;> rfl)

/-- The per-sample mean at (b, c, 0, 0): the plane's sum, from the initial value 0, divided by 12544. -/
theorem muS_apply (x : FVec Ideal S64x64x112x112 .f32) (b c : Fin 64) :
    muS x (ix4 b c 0 0) = kMuS x b c := by
  unfold muS
  rw [hostDivf_apply, bcastTable_apply, broadcastInDim_scalar_apply, constant_apply, hostReduceAdd_apply,
    Cert.LibPlaneSums.hostReduceAdd_plane, constant_apply, Ideal.ofBits_zero_f32, zero_add]
  rfl

/-- The variance's divisor: 12544 minus the integer 0 converted, which is 12544. -/
theorem cntS_apply : cntS ix0 = cHW := by
  unfold cntS
  rw [subf_apply, constant_apply, sitofp_apply]
  show cHW - (((0#32 : BitVec 32).toInt : ℝ) : EReal) = cHW
  simp

/-- The guard "the divisor is positive" holds: 12544 > 0. -/
theorem guardS : FloatOps.cmpf (F := Ideal) (φ := .f32) .ogt cHW (0 : EReal) = 1#1 := by
  rw [Ideal.cmpf_def, Ideal.cmp, cHW_eq]
  have h : (0 : EReal) < ((12544 : ℝ) : EReal) := by exact_mod_cast (by norm_num : (0 : ℝ) < 12544)
  simp [h]

/-- The deviation from the per-sample mean at (b, c, p, q). -/
theorem devS_apply (x : FVec Ideal S64x64x112x112 .f32) (b c : Fin 64) (p q : Fin 112) :
    devS x (ix4 b c p q) = x (ix4 b c p q) - kMuS x b c := by
  unfold devS
  rw [subf_apply, bcastPlane_apply, muS_apply]

/-- The per-sample variance at (b, c, 0, 0): the guard holds, so it is the sum of squared deviations over 12544. -/
theorem varS_apply (x : FVec Ideal S64x64x112x112 .f32) (b c : Fin 64) :
    varS x (ix4 b c 0 0) = rVarS x b c := by
  unfold varS
  rw [select_apply, broadcastInDim_scalar_apply, cmpf_apply, cntS_apply, constant_apply, Ideal.ofBits_zero_f32,
    guardS, select_one, hostDivf_apply, bcastTable_apply, broadcastInDim_scalar_apply, cntS_apply,
    hostReduceAdd_apply, Cert.LibPlaneSums.hostReduceAdd_plane, constant_apply, Ideal.ofBits_zero_f32, zero_add]
  unfold rVarS
  congr 1
  refine Finset.sum_congr rfl fun p _ => Finset.sum_congr rfl fun q _ => ?_
  rw [mulf_apply, devS_apply]

/-- The per-sample branch at (b, c, p, q). -/
theorem xGroups_apply (x : FVec Ideal S64x64x112x112 .f32) (g bg : FVec Ideal S64x64 .f32) (b c : Fin 64) (p q : Fin 112) :
    xGroups x g bg (ix4 b c p q) = (x (ix4 b c p q) - kMuS x b c) * rInvS x b c * g (ix2 b c) + bg (ix2 b c) := by
  unfold xGroups
  rw [addf_apply, mulf_apply, mulf_apply, devS_apply, bcastPlane_apply, bcastPlane_apply, bcastPlane_apply,
    bcastTable_apply, bcastTable_apply]
  show (x (ix4 b c p q) - kMuS x b c)
      * Ideal.rsqrt (varS x (ix4 b c 0 0) + broadcastInDim S64x64x1x1 ![] bcast_S_S64x64x1x1 (constant (F := Ideal) S_ .f32 0x3727C5AC#32) (ix4 b c 0 0))
      * g (ix2 b c) + bg (ix2 b c) = _
  rw [varS_apply, broadcastInDim_scalar_apply, constant_apply]
  rfl

end Cert.ReferenceIdeal.Blend

end
-- ==== Proof.RRead.lean ====
/-
  The reference's result read at an index: half the global branch plus half the per-sample branch.
-/
import proofs.«109601_j76192719831877_1_alg».proof.Proof.RReadG
import proofs.«109601_j76192719831877_1_alg».proof.Proof.RReadS
import Idealize.ShloMosaic.Lib.IdealHost

noncomputable section

namespace Cert.ReferenceIdeal.Blend

open Idealize.ShloMosaic Idealize.ShloMosaic.TcCoe Idealize.ShloMosaic.ValueIdx Idealize.SL.Sem
open Cert.ReferenceIdeal

open Cert.BlendNorm in
/-- The reference's result at (b, c, p, q) is the specification's. -/
theorem out_apply (x : FVec Ideal S64x64x112x112 .f32) (γ β : FVec Ideal S64 .f32) (g bg : FVec Ideal S64x64 .f32)
    (b c : Fin 64) (p q : Fin 112) : out x γ β g bg (ix4 b c p q) = rOut x γ β g bg b c p q := by
  unfold out rOut
  rw [addf_apply, mulf_apply, mulf_apply, xGlobal_apply, xGroups_apply,
    broadcastInDim_scalar_apply, constant_apply]

end Cert.ReferenceIdeal.Blend

end
-- ==== Proof.Finite.lean ====
/-
  The precondition read: every entry of the five float inputs is a real number.

  The printed predicate is the conjunction of five "all |entry| < +inf" tests; an extended real whose absolute
  value is below +inf is neither infinity, hence a real.
-/
import proofs.«109601_j76192719831877_1_alg».proof.Pre_finite_inputs
import proofs.«109601_j76192719831877_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.Pre_finite_inputs.Blend

open Idealize.ShloMosaic Idealize.ShloMosaic.ValueIdx Cert.Pre_finite_inputs

/-- The f32 pattern with all-ones exponent and zero fraction is +inf. -/
theorem ofBits_inf : Ideal.ofBits .f32 0x7F800000#32 = (⊤ : EReal) := by
  simp [Ideal.ofBits, Ideal.ieee]

/-- An extended real whose absolute value is strictly below +inf is a real number. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- The rank-0 shape has exactly one index (the empty tuple). -/
local instance scalarIdx_subsingleton : Subsingleton S_.Idx := ⟨fun a b => funext fun d => d.elim0⟩

/-- One block of the predicate: "all |entry| < +inf" over any shape gives a real at every index. -/
theorem real_of_block {S : Shape} {axes : List (Fin S.rank)} (hb : S_.BroadcastsInDim S (![] : Fin 0 → Fin S.rank))
    (hr : S.ReducesTo axes S_) (hu : 0 < S_.numel) (a : FVec Ideal S .f32) (j : S_.Idx)
    (e : Host.reduce IntOp.andi (cmpf .olt (Host.absf a) (broadcastInDim S ![] hb (constant S_ .f32 0x7F800000#32)))
      (constantI S_ 1 1#1) hr hu j = 1#1) (i : S.Idx) : ∃ r : ℝ, a i = (r : EReal) := by
  have hi := Host.reduce_andi_all _ _ hr hu j e i
  rw [cmpf_apply, broadcastInDim_scalar_apply, constant_apply, ofBits_inf, Ideal.cmpf_def] at hi
  exact real_of_abs_lt_top (a i) hi

/-- If the predicate is all ones, every float input holds only real numbers. -/
theorem finite_of_pre (a0 : FVec Ideal S64x64x112x112 .f32) (a1 a2 : FVec Ideal S64 .f32) (a3 a4 : FVec Ideal S32x64 .f32)
    (a5 : IVec S64 32) (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_block _ _ _ a0 _ e0, real_of_block _ _ _ a1 _ e1, real_of_block _ _ _ a2 _ e2,
    real_of_block _ _ _ a3 _ e3, real_of_block _ _ _ a4 _ e4⟩

end Cert.Pre_finite_inputs.Blend

end
-- ==== Proof.lean ====
/-
  Per-sample and global normalisation blended half and half, with label-routed affine parameters: the tiled kernel
  program against its array-level reference, over the extended reals.

  The kernel program makes two passes over the tensor x[b,c,p,q] (64 x 64 x 112 x 112).  The first launch leaves the sums
  of each (sample, channel) plane and of its squares; host operations turn them into per-sample and per-channel
  means and reciprocal standard deviations and fold these, the global scale and shift, and each sample's routed rows
  of the two group tables into one multiplier A[b,c] and one offset B[b,c]; the second launch writes x * A + B.  The
  reference normalises x twice (by channel statistics over the batch and by plane statistics per sample), scales and
  shifts each, and adds half of each.

  Frames: the two kernel programs' are the generated frame certificates; the reference is a straight line of host
  operations, whose run gives its frame.  The idealization rewrote nothing, so it preserves trivially.
  Value: the kernel's result array is its scalar formula at every index (the two launches' block-by-block results
  assembled over their grids, the host chain read at an index); the reference's is its own; with every input finite
  both are real numbers, the two variance forms agree because each divisor is the number of summands, and the two
  results differ by a rearrangement in a commutative ring.  The integer computation that picks a group row from a
  label is the same in both programs and is never opened: only that the row it picks is a row of a finite table.
-/
import proofs.«109601_j76192719831877_1_alg».proof.Defs
import proofs.«109601_j76192719831877_1_alg».proof.Proof.Gen.Kernel
import proofs.«109601_j76192719831877_1_alg».proof.Proof.Gen.Kernel.Frame
import proofs.«109601_j76192719831877_1_alg».proof.Proof.Gen.KernelIdeal
import proofs.«109601_j76192719831877_1_alg».proof.Proof.Gen.KernelIdeal.Frame
import proofs.«109601_j76192719831877_1_alg».proof.Proof.Gen.ReferenceIdeal
import proofs.«109601_j76192719831877_1_alg».proof.Proof.Gen.Pre_finite_inputs
import proofs.«109601_j76192719831877_1_alg».proof.Proof.KValue
import proofs.«109601_j76192719831877_1_alg».proof.Proof.RRun
import proofs.«109601_j76192719831877_1_alg».proof.Proof.RRead
import proofs.«109601_j76192719831877_1_alg».proof.Proof.Bridge
import proofs.«109601_j76192719831877_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- Both programs pick a sample's row of a group table by the same operations. -/
theorem route_eq (tbl : FVec Ideal Cert.KernelIdeal.S32x64 .f32) (lab : IVec Cert.KernelIdeal.S64 32) :
    Cert.ReferenceIdeal.Blend.route tbl lab = Cert.KernelIdeal.Blend.route tbl lab := rfl

/-- A routed row of a table of real numbers holds real numbers: every entry of it is an entry of the table. -/
theorem route_finite (tbl : FVec Ideal Cert.KernelIdeal.S32x64 .f32) (lab : IVec Cert.KernelIdeal.S64 32)
    (h : ∀ i, ∃ r : ℝ, tbl i = (r : EReal)) : ∀ i, ∃ r : ℝ, Cert.KernelIdeal.Blend.route tbl lab i = (r : EReal) :=
  fun _ => h _

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run (Cert.ReferenceIdeal.defs (F := Ideal)) _ _).mono (fun _ h c => (h c).2) (Cert.ReferenceIdeal.Blend.run m ρ)

/-- From memories agreeing on finite arguments both programs end at the common result array: the kernel's by its value
    chain, the reference's by its own read at an index and the agreement of the two scalar formulas on real inputs. -/
theorem algebraic : Cert.algebraic_KernelIdeal_ReferenceIdeal := by
  intro m ρ m' ρ' hpre hagree
  refine ⟨_, Cert.KernelIdeal.Blend.run m ρ, ?_⟩
  refine (θ_run (Cert.ReferenceIdeal.defs (F := Ideal)) _ _).mono (fun r h c => ⟨(h c).1.trans ?_, (h c).2⟩)
    (Cert.ReferenceIdeal.Blend.run m' ρ')
  obtain ⟨h0, h1, h2, h3, h4, h5⟩ := hagree c
  obtain ⟨f0, f1, f2, f3, f4⟩ := Cert.Pre_finite_inputs.Blend.finite_of_pre _ _ _ _ _ _ (hpre c)
  rw [h0, h1, h2, h3, h4, h5]
  refine Cert.BlendNorm.eq_outArr _ _ _ _ _ _ (fun b c' p q => ?_)
  rw [Cert.ReferenceIdeal.Blend.out_apply, route_eq, route_eq]
  exact (Cert.BlendNorm.kOut_eq_rOut _ _ _ _ _ f0 f1 f2 (route_finite _ _ f3) (route_finite _ _ f4) b c' p q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
